-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x128 : Shape := ⟨2, ![256, 128]⟩
abbrev S128x1 : Shape := ⟨2, ![128, 1]⟩
abbrev S2x262144 : Shape := ⟨2, ![2, 262144]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x256 .f32) (main_arg1 : FVec F S256x128 .f32) (main_arg2 : FVec F S128x1 .f32) (main_arg3 : IVec S2x262144 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x256 : Shape := ⟨2, ![8192, 256]⟩
abbrev S256x128 : Shape := ⟨2, ![256, 128]⟩
abbrev S128x1 : Shape := ⟨2, ![128, 1]⟩
abbrev S2x262144 : Shape := ⟨2, ![2, 262144]⟩
abbrev S8192x128 : Shape := ⟨2, ![8192, 128]⟩
abbrev S1024x256 : Shape := ⟨2, ![1024, 256]⟩
abbrev S1024x128 : Shape := ⟨2, ![1024, 128]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S2x8192x8192 : Shape := ⟨3, ![2, 8192, 8192]⟩
abbrev S262144x2 : Shape := ⟨2, ![262144, 2]⟩
abbrev S8192x8192 : Shape := ⟨2, ![8192, 8192]⟩
abbrev S1x128x8192 : Shape := ⟨3, ![1, 128, 8192]⟩
abbrev S128x8192 : Shape := ⟨2, ![128, 8192]⟩
abbrev S128 : Shape := ⟨1, ![128]⟩

abbrev nBuf : Space → Nat
  | .hbm => 62
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S256x128, .f32⟩
  | .hbm, ⟨2, _⟩ => ⟨S128x1, .f32⟩
  | .hbm, ⟨3, _⟩ => ⟨S2x262144, .i32⟩
  | .hbm, ⟨4, _⟩ => ⟨S8192x128, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x128, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x128, .f32⟩
  | .hbm, ⟨27, _⟩ => ⟨S262144x128, .f32⟩
  | .hbm, ⟨28, _⟩ => ⟨S262144x128, .f32⟩
  | .hbm, ⟨29, _⟩ => ⟨S262144x128, .bf16⟩
  | .hbm, ⟨30, _⟩ => ⟨S128x1, .bf16⟩
  | .hbm, ⟨31, _⟩ => ⟨S262144x1, .f32⟩
  | .hbm, ⟨32, _⟩ => ⟨S_, .f32⟩
  | .hbm, ⟨33, _⟩ => ⟨S262144x1, .f32⟩
  | .hbm, ⟨34, _⟩ => ⟨S262144x1, .f32⟩
  | .hbm, ⟨35, _⟩ => ⟨S262144, .f32⟩
  | .hbm, ⟨36, _⟩ => ⟨S_, .f32⟩
  | .hbm, ⟨37, _⟩ => ⟨S262144, .f32⟩
  | .hbm, ⟨38, _⟩ => ⟨S1x262144, .f32⟩
  | .hbm, ⟨39, _⟩ => ⟨S1x262144, .f32⟩
  | .hbm, ⟨40, _⟩ => ⟨S2x262144, .f32⟩
  | .hbm, ⟨41, _⟩ => ⟨S_, .f32⟩
  | .hbm, ⟨42, _⟩ => ⟨S2x8192x8192, .f32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x1, .i32⟩
  | .hbm, ⟨59, _⟩ => ⟨S262144x2, .i32⟩
  | .hbm, ⟨60, _⟩ => ⟨S2x8192x8192, .f32⟩
  | .hbm, ⟨61, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S1x128x8192, .f32⟩
  | .local _ .vmem, ⟨6, _⟩ => ⟨S1x128x8192, .f32⟩
  | .local _ .vmem, ⟨7, _⟩ => ⟨S1x128x8192, .f32⟩
  | .local _ .vmem, ⟨8, _⟩ => ⟨S1x128x8192, .f32⟩
  | .local _ .vmem, ⟨9, _⟩ => ⟨S128x8192, .f32⟩
  | .local _ .vmem, ⟨10, _⟩ => ⟨S128x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_cst : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144 : S262144x1.ShapeCasts S262144
  bcast_S262144_S1x262144_1 : S262144.BroadcastsInDim S1x262144 (![1] : Fin 1 → Fin S1x262144.rank)
  concatenates_S1x262144_S1x262144_S2x262144_d0 : Shape.Concatenates [S1x262144, S1x262144] S2x262144 0
  bcast_S_S2x8192x8192 : S_.BroadcastsInDim S2x8192x8192 (![] : Fin 0 → Fin S2x8192x8192.rank)
  concatenates_S262144x1_S262144x1_S262144x2_d1 : Shape.Concatenates [S262144x1, S262144x1] S262144x2 1
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  reduces_S128x8192_S128 : S128x8192.Reduces [1] S128
  shapeCasts_S128_S128x1 : S128.ShapeCasts S128x1
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  dot_S1024x256_S256x128_S1024x128_1_0_0_1_n_n_wf : DotDims.WF S1024x256 S256x128 S1024x128 [1] [0] [0] [1] [] []
  gather_S8192x128_S262144x1_S262144x128_1_0_n_n_0_1_1128_wf : GatherDims.WF S8192x128 S262144x1 S262144x128 [1] [0] [] [0] [] 1 ![1, 128]
  dot_S262144x128_S128x1_S262144x1_1_0_0_1_n_n_wf : DotDims.WF S262144x128 S128x1 S262144x1 [1] [0] [0] [1] [] []
  scatter_S2x8192x8192_S262144x2_S2x262144_0_12_12_1_wf : ScatterDims.WF S2x8192x8192 S262144x2 S2x262144 [0] [1, 2] [1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x8192.size a ≤ S2x8192x8192.size a
  hwx1_0 : ∀ i : grid1.Coords, EltTy.bits .f32 = 32 ∨ (Rect.block (s := S2x8192x8192) S1x128x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x8192.size a ≤ S2x8192x8192.size a
  hwx1_1 : ∀ i : grid1.Coords, EltTy.bits .f32 = 32 ∨ (Rect.block (s := S2x8192x8192) S1x128x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x8192.size a ≤ S8192x8192.size a
  hwx1_2 : ∀ i : grid1.Coords, EltTy.bits .f32 = 32 ∨ (Rect.block (s := S8192x8192) S128x8192.size (cc1_transform_2 i) (hinb1_2 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def scatter_S2x8192x8192_S262144x2_S2x262144_0_12_12_1 : ScatterDims S2x8192x8192 S262144x2 S2x262144 where
  updateWindowDims := [0]
  insertedWindowDims := [1, 2]
  scatterDimsToOperandDims := [1, 2]
  indexVectorDim := 1
  wf := scatter_S2x8192x8192_S262144x2_S2x262144_0_12_12_1_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1x128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S256x128 : Shape := ⟨2, ![256, 128]⟩
abbrev S128x1 : Shape := ⟨2, ![128, 1]⟩
abbrev S2x262144 : Shape := ⟨2, ![2, 262144]⟩
abbrev S8192x128 : Shape := ⟨2, ![8192, 128]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S8192x8192 : Shape := ⟨2, ![8192, 8192]⟩
abbrev S262144x2 : Shape := ⟨2, ![262144, 2]⟩
abbrev S8192 : Shape := ⟨1, ![8192]⟩
abbrev S8192x1 : Shape := ⟨2, ![8192, 1]⟩

abbrev nBuf : Space → Nat
  | .hbm => 94
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x128, .f32⟩
  | .hbm, ⟨2, _⟩ => ⟨S128x1, .f32⟩
  | .hbm, ⟨3, _⟩ => ⟨S2x262144, .i32⟩
  | .hbm, ⟨4, _⟩ => ⟨S8192x128, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x128, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x128, .f32⟩
  | .hbm, ⟨27, _⟩ => ⟨S262144x128, .f32⟩
  | .hbm, ⟨28, _⟩ => ⟨S262144x128, .f32⟩
  | .hbm, ⟨29, _⟩ => ⟨S262144x1, .f32⟩
  | .hbm, ⟨30, _⟩ => ⟨S_, .f32⟩
  | .hbm, ⟨31, _⟩ => ⟨S262144x1, .f32⟩
  | .hbm, ⟨32, _⟩ => ⟨S262144x1, .f32⟩
  | .hbm, ⟨33, _⟩ => ⟨S262144, .f32⟩
  | .hbm, ⟨34, _⟩ => ⟨S_, .f32⟩
  | .hbm, ⟨35, _⟩ => ⟨S8192x8192, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S262144x1, .i32⟩
  | .hbm, ⟨51, _⟩ => ⟨S262144x1, .i32⟩
  | .hbm, ⟨52, _⟩ => ⟨S262144x2, .i32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S_, .f32⟩
  | .hbm, ⟨71, _⟩ => ⟨S262144, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S_, .i32⟩
  | .hbm, ⟨80, _⟩ => ⟨S262144, .i32⟩
  | .hbm, ⟨81, _⟩ => ⟨S262144, .i1⟩
  | .hbm, ⟨82, _⟩ => ⟨S_, .i32⟩
  | .hbm, ⟨83, _⟩ => ⟨S262144, .i32⟩
  | .hbm, ⟨84, _⟩ => ⟨S262144, .i32⟩
  | .hbm, ⟨85, _⟩ => ⟨S262144, .i32⟩
  | .hbm, ⟨86, _⟩ => ⟨S262144x1, .i32⟩
  | .hbm, ⟨87, _⟩ => ⟨S262144x1, .i32⟩
  | .hbm, ⟨88, _⟩ => ⟨S262144x2, .i32⟩
  | .hbm, ⟨89, _⟩ => ⟨S8192x8192, .f32⟩
  | .hbm, ⟨90, _⟩ => ⟨S_, .f32⟩
  | .hbm, ⟨91, _⟩ => ⟨S8192x8192, .f32⟩
  | .hbm, ⟨92, _⟩ => ⟨S8192x8192, .f32⟩
  | .hbm, ⟨93, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_c_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_c_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144 : S262144x1.ShapeCasts S262144
  bcast_S_S8192x8192 : S_.BroadcastsInDim S8192x8192 (![] : Fin 0 → Fin S8192x8192.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  dot_S262144x128_S128x1_S262144x1_1_0_0_1_n_n_wf : DotDims.WF S262144x128 S128x1 S262144x1 [1] [0] [0] [1] [] []
  scatter_S8192x8192_S262144x2_S262144_n_01_01_1_wf : ScatterDims.WF S8192x8192 S262144x2 S262144 [] [0, 1] [0, 1] 1

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.K.Data.lean ====
/-
  The proof data of the two kernel regions of the program, at a PARAMETER `V`: the contents of the
  core's buffers when the region is entered.

  Region 0 multiplies a block of 1024 rows of the first argument by the whole second argument: its
  output buffer after the body is the one full-block store of the product of the two loaded blocks.
  Region 1 reads a block of 128 rows from each of the two planes of ONE array (its two input windows
  are on the same array, at leading coordinate 0 and 1), and stores the row-wise softmax of the first
  plus the second. An input window's buffer after the body is the block the fetch put there; nothing
  is carried between grid points, the invariant is the scoped rest and the generator register, and
  nothing is owed. In region 1 the array read through two windows is held at one half share by each.
-/
import proofs.«412872_j40175124086871_3_alg».proof.Proof.Gen.Kernel.Launch
import proofs.«412872_j40175124086871_3_alg».proof.Proof.Gen.Kernel.Skeleton
import proofs.«412872_j40175124086871_3_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x128 := Rect.unit (s := S256x128) ![0, 0] S256x128.size inb_S256x128_S256x128_0_0
abbrev r0_2 : Rect S1024x128 := Rect.unit (s := S1024x128) ![0, 0] S1024x128.size inb_S1024x128_S1024x128_0_0

/-- The output buffer of region 0 after the body: the one whole-block store of the product. -/
def out0_2 (x0 : Vec F S1024x256 .f32) (x1 : Vec F S256x128 .f32) : Vec F S1024x128 .f32 :=
  View.canon [⟨r0_2, k0_pay1 (View.ld x0 r0_0) (View.ld x1 r0_1)⟩]

/-- The proof data of region 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x128x8192 := Rect.unit (s := S1x128x8192) ![0, 0, 0] S1x128x8192.size inb_S1x128x8192_S1x128x8192_0_0_0
abbrev r1_2 : Rect S128x8192 := Rect.unit (s := S128x8192) ![0, 0] S128x8192.size inb_S128x8192_S128x8192_0_0

/-- The output buffer of region 1 after the body: the one whole-block store of softmax plus the second plane. -/
def out1_2 (x0 : Vec F S1x128x8192 .f32) (x1 : Vec F S1x128x8192 .f32) : Vec F S128x8192 .f32 :=
  View.canon [⟨r1_2, k1_pay1 (View.ld x0 r1_0) (View.ld x1 r1_0)⟩]

/-- The proof data of region 1: the two input windows read one array, each at one half share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.Kernel.Hand

end
-- ==== Proof.K.Body0.lean ====
/-
  Region 0's body obligation: at every grid point the matrix-product body, handed its two input blocks
  and any contents of the output block, leaves the inputs as they were and the output block at the one
  whole-block store of the product.
-/
import proofs.«412872_j40175124086871_3_alg».proof.Proof.K.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input buffers -/

/-- The left operand's buffer holds, at every point, the block of 1024 rows the point's index names:
    the window is an input the body leaves in place, so the buffer is what a fetch at the point puts
    there, and for a window that is not cut that is the block read off the array. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The right operand's buffer likewise holds the whole second matrix at every point. It is fetched at
    the first point only; its block index is the same at every point, so at a later point the buffer
    still holds the block the previous point left, which is this point's block. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The one store covers the output buffer -/

/-- The store's rectangle is the whole 1024 by 128 block, so every index of the block lies in it. -/
theorem cover0_2 (p : Vec F S1024x128 .f32) (y : S1024x128.Idx) :
    ∃ pc ∈ ([⟨r0_2, p⟩] : List (View.Piece (Elt F) S1024x128 .f32)), y ∈ pc.1.set :=
  View.cover_of_tiled [⟨r0_2, p⟩] S1024x128.size (by rfl) y

/-! ## The body on whole buffers -/

set_option maxHeartbeats 1000000 in
/-- The body, run on three whole buffers — the operands' reading `x0` and `x1`, the result's holding
    anything —, reaches its continuation with the operands' buffers unchanged and the result's buffer
    at the product's store over whatever it held: two loads of the operands, one load of the result
    buffer whose value nothing reads, then the single store, which overwrites every index. -/
theorem sound_kernel0 (c : Dev nD) (E : Set ℕ) (i : grid0.Coords)
    (a0 : Memref sig .tc .vmem S1024x256 .f32) (h0 : a0.IsWhole)
    (a1 : Memref sig .tc .vmem S256x128 .f32) (h1 : a1.IsWhole)
    (a2 : Memref sig .tc .vmem S1024x128 .f32) (h2 : a2.IsWhole)
    (x0 : Vec F S1024x256 .f32) (x1 : Vec F S256x128 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (out0_2 x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body at a grid point -/

/-- What the pipeline hands the body at point `t`: the invariant, what the core owes, and the current
    buffer of each of the three windows at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body hands back: the same invariant and debt, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, the result's buffer holds
    something, so the run on whole buffers applies; the invariant and the debt do not depend on the
    point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Body1.lean ====
/-
  Region 1's body obligation: at every grid point the softmax body, handed the two planes' blocks and any
  contents of the output block, leaves the inputs as they were and the output block at the one whole-block
  store of the row-wise softmax of the first plus the second.
-/
import proofs.«412872_j40175124086871_3_alg».proof.Proof.K.Data
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input buffers -/

/-- The first plane's current buffer holds that plane's block of rows at every point: both planes' windows are
    fetched whole (no cut, never idle), and the body leaves the block where it found it, so whatever the buffer
    held before, after the fetch it reads as the block of the array the region was entered with. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The same for the second plane's window. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The one store covers the output block -/

/-- The store's rectangle is the whole block, so every index of the block lies in it. -/
theorem cover1_2 (p0 : Vec F S128x8192 .f32) (y : S128x8192.Idx) :
    ∃ pc ∈ ([⟨r1_2, p0⟩] : List (View.Piece (Elt F) S128x8192 .f32)), y ∈ pc.1.set :=
  View.cover_of_tiled [⟨r1_2, p0⟩] S128x8192.size (by rfl) y

/-! ## The body's triple -/

set_option maxHeartbeats 1000000 in
/-- The body on three whole buffers — the two inputs at contents reading `x0` and `x1`, the output at any
    contents — runs to a state where the inputs read as before and the output reads as the one whole-block
    store of the payload of the two loaded values. The load of the output before the store reads a value that
    nothing uses; the store then overwrites every index, so the earlier contents leave no trace. -/
theorem sound_kernel1 (c : Dev nD) (E : Set ℕ) (i : grid1.Coords)
    (arg1 : Memref sig .tc .vmem S1x128x8192 .f32) (harg1 : arg1.IsWhole)
    (arg2 : Memref sig .tc .vmem S1x128x8192 .f32) (harg2 : arg2.IsWhole)
    (arg3 : Memref sig .tc .vmem S128x8192 .f32) (harg3 : arg3.IsWhole)
    (x0 x1 : Vec F S1x128x8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E
          (cc1__softmax_combine_kernel i arg1 harg1 arg2 harg2 arg3 harg3) K := by
  simp only [cc1__softmax_combine_kernel_eq_skeleton]; unfold cc1__softmax_combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is handed at point `t`: the invariant, what the core owes, and the three windows' current
    buffers, one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debt, and each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. The two input buffers read as their planes' blocks, the output buffer as anything, so the
    triple above applies with those two blocks; the invariant and the debt do not depend on the point and pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Access.lean ====
/-
  What the valuations between the program's items hold at the buffers the value argument reads: no host
  operation after region 0 writes region 0's result, so it reaches the end (and the host operations that
  read it) as region 0 left it; region 1's result is what region 1 left; an argument is never written.
-/
import proofs.«412872_j40175124086871_3_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (outs : Outs (F := F))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem V1_v0 (c : Dev nD) : V1 m outs c main_v0 = outs 1 main_v0 c := by
  simp only [V1, Function.update_self]

theorem V4_v0 (c : Dev nD) : V4 m outs c main_v0 = outs 1 main_v0 c :=
  (V4_of m outs c main_v0 (by decide)).trans <| (V3_of m outs c main_v0 (by decide)).trans <| (V2_of m outs c main_v0 (by decide)).trans (V1_v0 m outs c)

theorem V5_v0 (c : Dev nD) : V5 m outs c main_v0 = outs 1 main_v0 c :=
  (V5_of m outs c main_v0 (by decide)).trans (V4_v0 m outs c)

theorem V5_v45 (c : Dev nD) : V5 m outs c main_v45 = outs 5 main_v45 c := by
  simp only [V5, Function.update_self]

theorem V4_arg2 (c : Dev nD) : V4 m outs c main_arg2 = m ((c : Thread nD τ).loc main_arg2) :=
  (V4_of m outs c main_arg2 (by decide)).trans <| (V3_of m outs c main_arg2 (by decide)).trans <| (V2_of m outs c main_arg2 (by decide)).trans <| (V1_of m outs c main_arg2 (by decide)).trans rfl

theorem V4_arg3 (c : Dev nD) : V4 m outs c main_arg3 = m ((c : Thread nD τ).loc main_arg3) :=
  (V4_of m outs c main_arg3 (by decide)).trans <| (V3_of m outs c main_arg3 (by decide)).trans <| (V2_of m outs c main_arg3 (by decide)).trans <| (V1_of m outs c main_arg3 (by decide)).trans rfl

end Cert.Kernel.Hand

end
-- ==== Proof.KI.Data.lean ====
/-
  The proof data of the two kernel regions of the program, at a PARAMETER `V`: the contents of the
  core's buffers when the region is entered.

  Region 0 multiplies a block of 1024 rows of the first argument by the whole second argument: its
  output buffer after the body is the one full-block store of the product of the two loaded blocks.
  Region 1 reads a block of 128 rows from each of the two planes of ONE array (its two input windows
  are on the same array, at leading coordinate 0 and 1), and stores the row-wise softmax of the first
  plus the second. An input window's buffer after the body is the block the fetch put there; nothing
  is carried between grid points, the invariant is the scoped rest and the generator register, and
  nothing is owed. In region 1 the array read through two windows is held at one half share by each.
-/
import proofs.«412872_j40175124086871_3_alg».proof.Proof.Gen.KernelIdeal.Launch
import proofs.«412872_j40175124086871_3_alg».proof.Proof.Gen.KernelIdeal.Skeleton
import proofs.«412872_j40175124086871_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x128 := Rect.unit (s := S256x128) ![0, 0] S256x128.size inb_S256x128_S256x128_0_0
abbrev r0_2 : Rect S1024x128 := Rect.unit (s := S1024x128) ![0, 0] S1024x128.size inb_S1024x128_S1024x128_0_0

/-- The output buffer of region 0 after the body: the one whole-block store of the product. -/
def out0_2 (x0 : Vec F S1024x256 .f32) (x1 : Vec F S256x128 .f32) : Vec F S1024x128 .f32 :=
  View.canon [⟨r0_2, k0_pay1 (View.ld x0 r0_0) (View.ld x1 r0_1)⟩]

/-- The proof data of region 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x128x8192 := Rect.unit (s := S1x128x8192) ![0, 0, 0] S1x128x8192.size inb_S1x128x8192_S1x128x8192_0_0_0
abbrev r1_2 : Rect S128x8192 := Rect.unit (s := S128x8192) ![0, 0] S128x8192.size inb_S128x8192_S128x8192_0_0

/-- The output buffer of region 1 after the body: the one whole-block store of softmax plus the second plane. -/
def out1_2 (x0 : Vec F S1x128x8192 .f32) (x1 : Vec F S1x128x8192 .f32) : Vec F S128x8192 .f32 :=
  View.canon [⟨r1_2, k1_pay1 (View.ld x0 r1_0) (View.ld x1 r1_0)⟩]

/-- The proof data of region 1: the two input windows read one array, each at one half share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.KernelIdeal.Hand

end
-- ==== Proof.KI.Body0.lean ====
/-
  Region 0's body obligation: at every grid point the matrix-product body, handed its two input blocks
  and any contents of the output block, leaves the inputs as they were and the output block at the one
  whole-block store of the product.
-/
import proofs.«412872_j40175124086871_3_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input buffers -/

/-- The left operand's buffer holds, at every point, the block of 1024 rows the point's index names:
    the window is an input the body leaves in place, so the buffer is what a fetch at the point puts
    there, and for a window that is not cut that is the block read off the array. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The right operand's buffer likewise holds the whole second matrix at every point. It is fetched at
    the first point only; its block index is the same at every point, so at a later point the buffer
    still holds the block the previous point left, which is this point's block. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The one store covers the output buffer -/

/-- The store's rectangle is the whole 1024 by 128 block, so every index of the block lies in it. -/
theorem cover0_2 (p : Vec F S1024x128 .f32) (y : S1024x128.Idx) :
    ∃ pc ∈ ([⟨r0_2, p⟩] : List (View.Piece (Elt F) S1024x128 .f32)), y ∈ pc.1.set :=
  View.cover_of_tiled [⟨r0_2, p⟩] S1024x128.size (by rfl) y

/-! ## The body on whole buffers -/

set_option maxHeartbeats 1000000 in
/-- The body, run on three whole buffers — the operands' reading `x0` and `x1`, the result's holding
    anything —, reaches its continuation with the operands' buffers unchanged and the result's buffer
    at the product's store over whatever it held: two loads of the operands, one load of the result
    buffer whose value nothing reads, then the single store, which overwrites every index. -/
theorem sound_kernel0 (c : Dev nD) (E : Set ℕ) (i : grid0.Coords)
    (a0 : Memref sig .tc .vmem S1024x256 .f32) (h0 : a0.IsWhole)
    (a1 : Memref sig .tc .vmem S256x128 .f32) (h1 : a1.IsWhole)
    (a2 : Memref sig .tc .vmem S1024x128 .f32) (h2 : a2.IsWhole)
    (x0 : Vec F S1024x256 .f32) (x1 : Vec F S256x128 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (out0_2 x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body at a grid point -/

/-- What the pipeline hands the body at point `t`: the invariant, what the core owes, and the current
    buffer of each of the three windows at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body hands back: the same invariant and debt, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, the result's buffer holds
    something, so the run on whole buffers applies; the invariant and the debt do not depend on the
    point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Body1.lean ====
/-
  Region 1's body obligation: at every grid point the softmax body, handed the two planes' blocks and any
  contents of the output block, leaves the inputs as they were and the output block at the one whole-block
  store of the row-wise softmax of the first plus the second.
-/
import proofs.«412872_j40175124086871_3_alg».proof.Proof.KI.Data
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input buffers -/

/-- The first plane's current buffer holds that plane's block of rows at every point: both planes' windows are
    fetched whole (no cut, never idle), and the body leaves the block where it found it, so whatever the buffer
    held before, after the fetch it reads as the block of the array the region was entered with. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The same for the second plane's window. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The one store covers the output block -/

/-- The store's rectangle is the whole block, so every index of the block lies in it. -/
theorem cover1_2 (p0 : Vec F S128x8192 .f32) (y : S128x8192.Idx) :
    ∃ pc ∈ ([⟨r1_2, p0⟩] : List (View.Piece (Elt F) S128x8192 .f32)), y ∈ pc.1.set :=
  View.cover_of_tiled [⟨r1_2, p0⟩] S128x8192.size (by rfl) y

/-! ## The body's triple -/

set_option maxHeartbeats 1000000 in
/-- The body on three whole buffers — the two inputs at contents reading `x0` and `x1`, the output at any
    contents — runs to a state where the inputs read as before and the output reads as the one whole-block
    store of the payload of the two loaded values. The load of the output before the store reads a value that
    nothing uses; the store then overwrites every index, so the earlier contents leave no trace. -/
theorem sound_kernel1 (c : Dev nD) (E : Set ℕ) (i : grid1.Coords)
    (arg1 : Memref sig .tc .vmem S1x128x8192 .f32) (harg1 : arg1.IsWhole)
    (arg2 : Memref sig .tc .vmem S1x128x8192 .f32) (harg2 : arg2.IsWhole)
    (arg3 : Memref sig .tc .vmem S128x8192 .f32) (harg3 : arg3.IsWhole)
    (x0 x1 : Vec F S1x128x8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E
          (cc1__softmax_combine_kernel i arg1 harg1 arg2 harg2 arg3 harg3) K := by
  simp only [cc1__softmax_combine_kernel_eq_skeleton]; unfold cc1__softmax_combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is handed at point `t`: the invariant, what the core owes, and the three windows' current
    buffers, one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debt, and each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. The two input buffers read as their planes' blocks, the output buffer as anything, so the
    triple above applies with those two blocks; the invariant and the debt do not depend on the point and pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Access.lean ====
/-
  What the valuations between the program's items hold at the buffers the value argument reads: no host
  operation after region 0 writes region 0's result, so it reaches the end (and the host operations that
  read it) as region 0 left it; region 1's result is what region 1 left; an argument is never written.
-/
import proofs.«412872_j40175124086871_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (outs : Outs (F := F))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem V1_v0 (c : Dev nD) : V1 m outs c main_v0 = outs 1 main_v0 c := by
  simp only [V1, Function.update_self]

theorem V4_v0 (c : Dev nD) : V4 m outs c main_v0 = outs 1 main_v0 c :=
  (V4_of m outs c main_v0 (by decide)).trans <| (V3_of m outs c main_v0 (by decide)).trans <| (V2_of m outs c main_v0 (by decide)).trans (V1_v0 m outs c)

theorem V5_v0 (c : Dev nD) : V5 m outs c main_v0 = outs 1 main_v0 c :=
  (V5_of m outs c main_v0 (by decide)).trans (V4_v0 m outs c)

theorem V5_v45 (c : Dev nD) : V5 m outs c main_v45 = outs 5 main_v45 c := by
  simp only [V5, Function.update_self]

theorem V4_arg2 (c : Dev nD) : V4 m outs c main_arg2 = m ((c : Thread nD τ).loc main_arg2) :=
  (V4_of m outs c main_arg2 (by decide)).trans <| (V3_of m outs c main_arg2 (by decide)).trans <| (V2_of m outs c main_arg2 (by decide)).trans <| (V1_of m outs c main_arg2 (by decide)).trans rfl

theorem V4_arg3 (c : Dev nD) : V4 m outs c main_arg3 = m ((c : Thread nD τ).loc main_arg3) :=
  (V4_of m outs c main_arg3 (by decide)).trans <| (V3_of m outs c main_arg3 (by decide)).trans <| (V2_of m outs c main_arg3 (by decide)).trans <| (V1_of m outs c main_arg3 (by decide)).trans rfl

end Cert.KernelIdeal.Hand

end
-- ==== Proof.Spec.lean ====
/-
  The two results of the program as functions of its arguments, over the extended reals.

  `prod x w` is the matrix product: entry (r, j) is the sum over k of x (r, k) · w (k, j).
  `rowMax D r` is the maximum of row r of D, folded from −∞.
  `softmaxPlus D A` is, entry by entry, the row-wise softmax of D — the exponential of the entry less
  its row's maximum, divided by the sum over the row of those exponentials — plus the entry of A.
-/
import Idealize.ShloMosaic.PureOps.Ideal
import Idealize.ShloMosaic.Lib.ValueIdx

noncomputable section

open scoped BigOperators

namespace Cert.Spec

open Idealize.ShloMosaic Idealize.ShloMosaic.ValueIdx

/-- The matrix product of an [8192, 256] array and a [256, 128] array. -/
def prod (x : (⟨2, ![8192, 256]⟩ : Shape).Idx → EReal) (w : (⟨2, ![256, 128]⟩ : Shape).Idx → EReal) :
    (⟨2, ![8192, 128]⟩ : Shape).Idx → EReal :=
  fun i => ∑ k : Fin 256, x (ix2 (i 0 : Fin 8192) k) * w (ix2 k (i 1 : Fin 128))

/-- The maximum of row `r` of an [8192, 8192] array, folded from −∞. -/
def rowMax (D : (⟨2, ![8192, 8192]⟩ : Shape).Idx → EReal) (r : Fin 8192) : EReal :=
  (Finset.univ : Finset (Fin 8192)).fold max ⊥ (fun q => D (ix2 r q))

/-- The exponential of an entry less its row's maximum. -/
def expShift (D : (⟨2, ![8192, 8192]⟩ : Shape).Idx → EReal) (r q : Fin 8192) : EReal :=
  Ideal.exp (D (ix2 r q) - rowMax D r)

/-- Row-wise softmax of `D` plus `A`, entry by entry. -/
def softmaxPlus (D A : (⟨2, ![8192, 8192]⟩ : Shape).Idx → EReal) : (⟨2, ![8192, 8192]⟩ : Shape).Idx → EReal :=
  fun i => Ideal.div (expShift D (i 0 : Fin 8192) (i 1 : Fin 8192)) (∑ q : Fin 8192, expShift D (i 0 : Fin 8192) q) + A i

end Cert.Spec

end
-- ==== Proof.KV0.lean ====
/-
  Region 0's result array is the matrix product of the first two arguments: the block of 1024 rows that
  grid point t writes back holds, at (p, j), the sum over k of x (1024 t + p, k) · w (k, j); the eight blocks
  tile the 8192 rows, so the array after the last write-back is the product entry by entry.
-/
import proofs.«412872_j40175124086871_3_alg».proof.Proof.KI.Data
import proofs.«412872_j40175124086871_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The product of two loaded blocks, entry by entry -/

/-- The left operand's row coordinate at an output entry is the entry's row. -/
theorem dot0_lhs_row (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- The left operand's column coordinate is the summation index. -/
theorem dot0_lhs_col (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- The right operand's row coordinate is the summation index. -/
theorem dot0_rhs_row (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- The right operand's column coordinate at an output entry is the entry's column. -/
theorem dot0_rhs_col (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The body's value at entry (p, j) of its block: the sum over k of the first block at (p, k) times the
    second at (k, j). The two format changes are the identity on extended reals and the accumulator is zero. -/
theorem pay0_apply (x0 : Vec Ideal S1024x256 .f32) (x1 : Vec Ideal S256x128 .f32) (p : Fin 1024) (j : Fin 128) :
    k0_pay1 (F := Ideal) x0 x1 (ix2 p j) = ∑ k : Fin 256, x0 (ix2 p k) * x1 (ix2 k j) := by
  unfold k0_pay1
  refine (Ideal.matmul_constant_zero_apply dot_S1024x256_S256x128_S1024x128_1_0_0_1_n_n none _ _ (ix2 p j)).trans ?_
  rw [← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p j) ((ValueIdx.contrEquiv1 dot_S1024x256_S256x128_S1024x128_1_0_0_1_n_n 256 rfl rfl).symm k) = ix2 p k := funext fun a => Fin.ext (by
    match a with
    | ⟨0, _⟩ => exact dot0_lhs_row _ _
    | ⟨1, _⟩ => exact (dot0_lhs_col _ _).trans hk)
  have er : dot_S1024x256_S256x128_S1024x128_1_0_0_1_n_n.rhsIdx (ix2 p j) ((ValueIdx.contrEquiv1 dot_S1024x256_S256x128_S1024x128_1_0_0_1_n_n 256 rfl rfl).symm k) = ix2 k j := funext fun a => Fin.ext (by
    match a with
    | ⟨0, _⟩ => exact (dot0_rhs_row _ _).trans hk
    | ⟨1, _⟩ => exact dot0_rhs_col _ _)
  rw [el, er]
  rfl

/-! ## A grid point's block of the result is that block of the product -/

/-- The offsets of a whole-buffer rectangle, however the zeros are spelt. -/
theorem zero_offsets0 : (![0, 0] : Fin 2 → Nat) = fun _ => 0 :=
  funext fun a => by match a with | ⟨0, _⟩ => rfl | ⟨1, _⟩ => rfl

/-- The printed index maps, decided over the eight grid points: the first operand's and the result's block
    index is (t, 0), the second operand's is (0, 0). -/
theorem block_indices0 : ∀ t : Fin cfg0.N, t.val < 8
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- With both operands' blocks read off their arrays — the first at rows 1024 n + p, the second whole — the
    body's value at a block entry is the product's entry at the array index the block entry sits at. -/
theorem pay0_eq_prod (X : S8192x256.Idx → EReal) (W : S256x128.Idx → EReal)
    (x0 : Vec Ideal S1024x256 .f32) (x1 : Vec Ideal S256x128 .f32) (n : Nat)
    (h0 : ∀ (p : Fin 1024) (k : Fin 256) (r : Fin 8192), r.val = n * 1024 + p.val → x0 (ix2 p k) = X (ix2 r k))
    (h1 : ∀ (k : Fin 256) (j : Fin 128), x1 (ix2 k j) = W (ix2 k j))
    (y : S1024x128.Idx) (i : S8192x128.Idx) (hi0 : (i 0).val = n * 1024 + (y 0).val) (hi1 : (i 1).val = (y 1).val) :
    k0_pay1 (F := Ideal) x0 x1 y = Cert.Spec.prod X W i := by
  obtain ⟨p, j, rfl⟩ : ∃ (p : Fin 1024) (j : Fin 128), y = ix2 p j := ⟨y 0, y 1, eq_ix2 y⟩
  rw [pay0_apply]
  unfold Cert.Spec.prod
  refine Finset.sum_congr rfl fun k _ => ?_
  have ej : (i 1 : Fin 128) = j := Fin.ext hi1
  rw [h0 p k (i 0) hi0, h1 k j, ej]

/-- The first operand's block at point t is rows 1024 t … 1024 t + 1023 of the first argument. -/
theorem lhs_block0 (c : Dev nD) (t : Fin cfg0.N) (p : Fin 1024) (k : Fin 256) (r : Fin 8192)
    (hr : r.val = t.val * 1024 + p.val) :
    (iblk0 (F := Ideal) V c 0 t : Vec Ideal S1024x256 .f32) (ix2 p k) = (V c main_arg0 : S8192x256.Idx → EReal) (ix2 r k) := by
  obtain ⟨-, e0, e1, -⟩ := block_indices0 t
  unfold iblk0
  rw [View.read_apply]
  show V c main_arg0 _ = V c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 256 + 1 * k.val = k.val; rw [e1]; omega

/-- The second operand's block at every point is the whole second argument. -/
theorem rhs_block0 (c : Dev nD) (t : Fin cfg0.N) (k : Fin 256) (j : Fin 128) :
    (iblk0 (F := Ideal) V c 1 t : Vec Ideal S256x128 .f32) (ix2 k j) = (V c main_arg1 : S256x128.Idx → EReal) (ix2 k j) := by
  obtain ⟨-, -, -, e0, e1, -⟩ := block_indices0 t
  unfold iblk0
  rw [View.read_apply]
  show V c main_arg1 _ = V c main_arg1 _
  congr 1
  funext a
  apply Fin.ext
  match a with
  | ⟨0, _⟩ => show win0_1.index t (0 : Fin 2) * 256 + 1 * k.val = k.val; rw [e0]; omega
  | ⟨1, _⟩ => show win0_1.index t (1 : Fin 2) * 128 + 1 * j.val = j.val; rw [e1]; omega

/-- What point t writes back is block t of the product of the two arguments. -/
theorem flushed0_eq_prod (c : Dev nD) (t : Fin cfg0.N) :
    (dat0 (F := Ideal) V c).flushed 2 t
      = ((cfg0.win 2).blk t).view.read (Elt Ideal) (Cert.Spec.prod (V c main_arg0) (V c main_arg1)) := by
  show (cfg0.win 2).cut (grid0.coords t) ((dat0 (F := Ideal) V c).after 2 t) = _
  rw [after0_2]
  unfold out0_2
  rw [View.canon_unit_zero zero_offsets0]
  simp only [View.ld_unit_zero (S := S1024x256) zero_offsets0, View.ld_unit_zero (S := S256x128) zero_offsets0]
  obtain ⟨-, -, -, -, -, e0, e1⟩ := block_indices0 t
  funext y
  show k0_pay1 (F := Ideal) (iblk0 V c 0 t) (iblk0 V c 1 t) ((cfg0.win 2).xinj (grid0.coords t) y)
    = Cert.Spec.prod (V c main_arg0) (V c main_arg1) (((cfg0.win 2).blk t).view.emb y)
  refine pay0_eq_prod (V c main_arg0) (V c main_arg1) (iblk0 V c 0 t) (iblk0 V c 1 t) t.val
    (lhs_block0 V c t) (rhs_block0 V c t) ((cfg0.win 2).xinj (grid0.coords t) y) (((cfg0.win 2).blk t).view.emb y) ?_ ?_
  · show win0_2.index t (0 : Fin 2) * 1024 + 1 * (y 0).val = t.val * 1024 + (y 0).val
    rw [e0]; omega
  · show win0_2.index t (1 : Fin 2) * 128 + 1 * (y 1).val = (y 1).val
    rw [e1]; omega

/-! ## The eight blocks tile the rows -/

/-- An index of the result array is in point t's block iff each coordinate is in the block's range on its axis. -/
theorem mem_block0 (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Row r of the result lies in the block of point r / 1024, which writes its block back. -/
theorem rows_covered0 (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  have ht : t.val = (i 0).val / 1024 := rfl
  obtain ⟨-, -, -, -, -, e0, e1⟩ := block_indices0 t
  refine ⟨t, flush0_2 t, ?_⟩
  rw [mem_block0]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 128 ≤ (i 1).val ∧ (i 1).val < win0_2.index t (1 : Fin 2) * 128 + 128
    rw [e1]; omega

/-- Region 0's result array after its last write-back is the matrix product of the arrays its two input windows read. -/
theorem arr0_eq (c : Dev nD) :
    (dat0 (F := Ideal) V c).arrAt 2 cfg0.N = Cert.Spec.prod (V c main_arg0) (V c main_arg1) := by
  exact (dat0 (F := Ideal) V c).arrAt_eq_of_cover 2 (Cert.Spec.prod (V c main_arg0) (V c main_arg1))
    (fun t _ => flushed0_eq_prod V c t) rows_covered0

end Cert.KernelIdeal.Hand

end
-- ==== Proof.KV1.lean ====
/-
  Region 1's result array is the row-wise softmax of plane 0 of the stacked array plus its plane 1: the block
  of 128 rows that grid point t writes back holds, at (p, q), the exponential of D (128 t + p, q) less its row's
  maximum over the sum of the row's such exponentials, plus A (128 t + p, q); the 64 blocks tile the 8192 rows.
-/
import proofs.«412872_j40175124086871_3_alg».proof.Proof.KI.Data
import proofs.«412872_j40175124086871_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

namespace SoftmaxRows

/-- The word of minus infinity denotes the bottom of the extended reals. -/
theorem negInf_eq_bot : Ideal.ofBits .f32 0xFF800000#32 = (⊥ : EReal) := by
  simp [Ideal.ofBits, Ideal.ieee]

/-- The index a reduction over the lanes inserts is (row, lane). -/
theorem lift_row (p : Fin 128) (k : Fin 8192) :
    reduces_S128x8192_S128.lift (ix1 p) k = ix2 p k := by
  funext a
  match a with
  | ⟨0, _⟩ => rfl
  | ⟨1, _⟩ => rfl

/-- The maximum over the lanes of row p. -/
theorem rowmax_apply (v : FVec Ideal S128x8192 .f32) (hφ : FKind.Formats .f32)
    (hacc : (0xFF800000#32 : BitVec 32) = 0xFF800000#32) (p : Fin 128) :
    multiReduction .maximumf [1] S128 v 0xFF800000#32 reduces_S128x8192_S128 hφ hacc (ix1 p)
      = (Finset.univ : Finset (Fin 8192)).fold max ⊥ (fun k => v (ix2 p k)) := by
  refine (Ideal.multiReduction_maximumf_single v _ reduces_S128x8192_S128 hφ hacc (ix1 p)).trans ?_
  show (Finset.univ : Finset (Fin 8192)).fold max (Ideal.ofBits .f32 0xFF800000#32) (fun k => v (reduces_S128x8192_S128.lift (ix1 p) k)) = _
  rw [negInf_eq_bot]
  exact congrArg (fun f => Finset.fold max (⊥ : EReal) f (Finset.univ : Finset (Fin 8192))) (funext fun k => congrArg v (lift_row p k))

/-- The sum over the lanes of row p. -/
theorem rowsum_apply (v : FVec Ideal S128x8192 .f32) (hφ : FKind.Formats .f32)
    (hacc : (0x00000000#32 : BitVec 32) = 0x00000000#32) (p : Fin 128) :
    multiReduction .add [1] S128 v 0x00000000#32 reduces_S128x8192_S128 hφ hacc (ix1 p)
      = ∑ k : Fin 8192, v (ix2 p k) := by
  refine (Ideal.multiReduction_add_single v _ reduces_S128x8192_S128 hφ hacc (ix1 p)).trans ?_
  show ∑ k : Fin 8192, v (reduces_S128x8192_S128.lift (ix1 p) k) = _
  exact Finset.sum_congr rfl fun k _ => congrArg v (lift_row p k)

/-- A per-row value made a column and spread along the lanes reads, at (p, q), the value of row p. -/
theorem colspread_apply (r : FVec Ideal S128 .f32) (p : Fin 128) (q : Fin 8192) :
    broadcastTo S128x8192 (shapeCast S128x1 r shapeCasts_S128_S128x1) broadcasts_S128x1_S128x8192 (ix2 p q) = r (ix1 p) := by
  refine (broadcastTo_apply _ broadcasts_S128x1_S128x8192 (ix2 p q) (ix2 p (0 : Fin 1)) fun a => ?_).trans ?_
  · match a with
    | ⟨0, _⟩ => rfl
    | ⟨1, _⟩ => rfl
  · refine shapeCast_apply r shapeCasts_S128_S128x1 (ix2 p (0 : Fin 1)) (ix1 p) ?_
    rw [Shape.rowMajor_val_one, Shape.rowMajor_val_two]
    show p.val = p.val * 1 + 0
    omega

/-- The exponential of a vector at an index is the exponential of its entry. -/
theorem exp_at (a : FVec Ideal S128x8192 .f32) (i : S128x8192.Idx) : (exp a : FVec Ideal S128x8192 .f32) i = Ideal.exp (a i) := rfl

/-- The maximum of row p of the first plane of a block, folded from minus infinity. -/
def blockRowMax (x0 : Vec Ideal S1x128x8192 .f32) (p : Fin 128) : EReal :=
  (Finset.univ : Finset (Fin 8192)).fold max ⊥ (fun k => x0 (ix3 (0 : Fin 1) p k))

/-- The body's stored value at (p, q): the softmax of row p of the first block at lane q, plus the second block's entry. -/
theorem pay_apply (x0 x1 : Vec Ideal S1x128x8192 .f32) (p : Fin 128) (q : Fin 8192) :
    k1_pay1 x0 x1 (ix2 p q)
      = Ideal.div (Ideal.exp (x0 (ix3 (0 : Fin 1) p q) - blockRowMax x0 p))
          (∑ k : Fin 8192, Ideal.exp (x0 (ix3 (0 : Fin 1) p k) - blockRowMax x0 p))
        + x1 (ix3 (0 : Fin 1) p q) := by
  unfold k1_pay1 blockRowMax
  simp only [addf_apply, divf_apply, colspread_apply, exp_at, subf_apply, shapeCast_1ab_ab_apply]
  rw [rowmax_apply, rowsum_apply]
  simp only [exp_at, subf_apply, colspread_apply, shapeCast_1ab_ab_apply]
  rw [rowmax_apply]
  simp only [shapeCast_1ab_ab_apply]

/-- If row p of the first block is row r of D, and the second block's entry at (p, q) is A's at (r, q), the stored
value at (p, q) is the softmax of D plus A at (r, q). -/
theorem pay_eq_softmaxPlus (x0 x1 : Vec Ideal S1x128x8192 .f32) (D A : S8192x8192.Idx → EReal)
    (p : Fin 128) (q r : Fin 8192)
    (h0 : ∀ k : Fin 8192, x0 (ix3 (0 : Fin 1) p k) = D (ix2 r k))
    (h1 : x1 (ix3 (0 : Fin 1) p q) = A (ix2 r q)) :
    k1_pay1 x0 x1 (ix2 p q) = Cert.Spec.softmaxPlus D A (ix2 r q) := by
  rw [pay_apply]
  unfold blockRowMax Cert.Spec.softmaxPlus Cert.Spec.expShift Cert.Spec.rowMax
  simp only [h0, h1]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices of region 1's three windows at a grid point t: the inputs sit in planes 0 and 1 at row block t,
the output at row block t; every other block index is 0. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 1 ∧ win1_1.index t (1 : Fin 3) = t.val ∧ win1_1.index t (2 : Fin 3) = 0
    ∧ win1_2.index t (0 : Fin 2) = t.val ∧ win1_2.index t (1 : Fin 2) = 0 :=
  (by decide +kernel : ∀ t : Fin grid1.N, _)

/-- The first input block at point t holds rows 128 t … 128 t + 127 of plane 0. -/
theorem blk0_apply (c : Dev nD) (t : Fin cfg1.N) (u : Fin 1) (p : Fin 128) (q r : Fin 8192)
    (hr : r.val = t.val * 128 + p.val) :
    (iblk1 V c 0 t : Vec Ideal S1x128x8192 .f32) (ix3 u p q) = V c main_v44 (ix3 (0 : Fin 2) r q) := by
  obtain ⟨e0, e1, e2, -⟩ := idx_facts1 t
  unfold iblk1
  rw [View.read_apply]
  show V c main_v44 _ = V c main_v44 _
  congr 1
  funext a
  apply Fin.ext
  match a with
  | ⟨0, _⟩ => show win1_0.index t (0 : Fin 3) * 1 + 1 * u.val = 0; omega
  | ⟨1, _⟩ => show win1_0.index t (1 : Fin 3) * 128 + 1 * p.val = r.val; omega
  | ⟨2, _⟩ => show win1_0.index t (2 : Fin 3) * 8192 + 1 * q.val = q.val; omega

/-- The second input block at point t holds the same rows of plane 1. -/
theorem blk1_apply (c : Dev nD) (t : Fin cfg1.N) (u : Fin 1) (p : Fin 128) (q r : Fin 8192)
    (hr : r.val = t.val * 128 + p.val) :
    (iblk1 V c 1 t : Vec Ideal S1x128x8192 .f32) (ix3 u p q) = V c main_v44 (ix3 (1 : Fin 2) r q) := by
  obtain ⟨-, -, -, e0, e1, e2, -⟩ := idx_facts1 t
  unfold iblk1
  rw [View.read_apply]
  show V c main_v44 _ = V c main_v44 _
  congr 1
  funext a
  apply Fin.ext
  match a with
  | ⟨0, _⟩ => show win1_1.index t (0 : Fin 3) * 1 + 1 * u.val = 1; omega
  | ⟨1, _⟩ => show win1_1.index t (1 : Fin 3) * 128 + 1 * p.val = r.val; omega
  | ⟨2, _⟩ => show win1_1.index t (2 : Fin 3) * 8192 + 1 * q.val = q.val; omega

/-- Plane 0 and plane 1 of the stacked array, as the region finds it. -/
abbrev plane0 (c : Dev nD) : S8192x8192.Idx → EReal :=
  fun i => V c main_v44 (ix3 (0 : Fin 2) (i 0 : Fin 8192) (i 1 : Fin 8192))
abbrev plane1 (c : Dev nD) : S8192x8192.Idx → EReal :=
  fun i => V c main_v44 (ix3 (1 : Fin 2) (i 0 : Fin 8192) (i 1 : Fin 8192))

/-- What grid point t writes back is block t of the softmax of plane 0 plus plane 1. -/
theorem flushed1_eq (c : Dev nD) (t : Fin cfg1.N) :
    (dat1 (F := Ideal) V c).flushed 2 t
      = ((cfg1.win 2).blk t).view.read (Elt Ideal) (Cert.Spec.softmaxPlus (plane0 V c) (plane1 V c)) := by
  show (cfg1.win 2).cut (grid1.coords t) ((dat1 (F := Ideal) V c).after 2 t) = _
  rw [after1_2]
  unfold out1_2
  rw [View.canon_unit_zero zeros2]
  simp only [View.ld_unit_zero (S := S1x128x8192) zeros3]
  refine funext fun (j : S128x8192.Idx) => ?_
  obtain ⟨p, q, rfl⟩ : ∃ (p : Fin 128) (q : Fin 8192), j = ix2 p q := ⟨j 0, j 1, eq_ix2 j⟩
  obtain ⟨-, -, -, -, -, -, e0, e1⟩ := idx_facts1 t
  have hN : cfg1.N = 64 := N_1
  have ht : t.val < 64 := hN ▸ t.isLt
  have hp : p.val < 128 := p.isLt
  let r : Fin 8192 := ⟨t.val * 128 + p.val, by omega⟩
  have hr : r.val = t.val * 128 + p.val := rfl
  have hemb : ((cfg1.win 2).blk t).view.emb (ix2 p q) = (ix2 r q : S8192x8192.Idx) := by
    funext a
    apply Fin.ext
    match a with
    | ⟨0, _⟩ => show win1_2.index t (0 : Fin 2) * 128 + 1 * p.val = t.val * 128 + p.val; omega
    | ⟨1, _⟩ => show win1_2.index t (1 : Fin 2) * 8192 + 1 * q.val = q.val; omega
  show k1_pay1 (iblk1 V c 0 t) (iblk1 V c 1 t) (ix2 p q)
    = Cert.Spec.softmaxPlus (plane0 V c) (plane1 V c) (((cfg1.win 2).blk t).view.emb (ix2 p q))
  rw [hemb]
  exact pay_eq_softmaxPlus (iblk1 V c 0 t) (iblk1 V c 1 t) (plane0 V c) (plane1 V c) p q r
    (fun k => blk0_apply V c t (0 : Fin 1) p k r hr) (blk1_apply V c t (0 : Fin 1) p q r hr)

/-- An index of the result array is in point t's block iff each coordinate is in the block's range on its axis. -/
theorem mem_blk1 (t : Fin cfg1.N) (i : S8192x8192.Idx) :
    i ∈ ((cfg1.win 2).blk t).view.set ↔ ∀ a : Fin 2, win1_2.index t a * S128x8192.size a ≤ (i a).val ∧ (i a).val < win1_2.index t a * S128x8192.size a + S128x8192.size a := by
  show i ∈ ((View.whole main_v45).slice (win1_2.rect t)).set ↔ _
  rw [View.set_slice_whole, Rect.mem_set_unit]
  exact Iff.rfl

/-- Every index of the result array lies in the block of the point its row falls in. -/
theorem cover1 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  have hN : cfg1.N = 64 := N_1
  let t : Fin cfg1.N := ⟨(i 0).val / 128, by rw [hN]; omega⟩
  have ht : t.val = (i 0).val / 128 := rfl
  obtain ⟨-, -, -, -, -, -, e0, e1⟩ := idx_facts1 t
  refine ⟨t, flush1_2 t, ?_⟩
  rw [mem_blk1]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 8192 ≤ (i 1).val ∧ (i 1).val < win1_2.index t (1 : Fin 2) * 8192 + 8192
    omega

end SoftmaxRows

open SoftmaxRows

/-- Region 1's result array after its last write-back is the softmax of plane 0 plus plane 1 of the array its two input windows read. -/
theorem arr1_eq (c : Dev nD) :
    (dat1 (F := Ideal) V c).arrAt 2 cfg1.N
      = Cert.Spec.softmaxPlus (fun i => V c main_v44 (ix3 (0 : Fin 2) (i 0 : Fin 8192) (i 1 : Fin 8192)))
          (fun i => V c main_v44 (ix3 (1 : Fin 2) (i 0 : Fin 8192) (i 1 : Fin 8192))) :=
  (dat1 (F := Ideal) V c).arrAt_eq_of_cover 2 (Cert.Spec.softmaxPlus (plane0 V c) (plane1 V c))
    (fun t _ => flushed1_eq V c t) cover1

end Cert.KernelIdeal.Hand

end
-- ==== Proof.Scatter.lean ====
/-
  A scatter-add into a stack of two planes, the scatter indices naming a row and a column and every update
  spanning the two planes, is plane by plane the scatter-add of the corresponding row of updates into one
  plane: an update (p, e) lands at (p, row e, col e) exactly when update e of the one-plane scatter lands at
  (row e, col e), and it is dropped exactly when that one is. And a scatter-add of one constant into zeros,
  scaled, is the scatter-add of the scaled constant: each entry is the count of updates landing on it times
  the constant.
-/
import Idealize.ShloMosaic.PureOps.Ideal
import Idealize.ShloMosaic.Lib.ValueIdx

noncomputable section

open scoped BigOperators

namespace Cert.Spec

open Idealize.ShloMosaic Idealize.ShloMosaic.ValueIdx

namespace ScatterAux

/-! ## Two general facts -/

/-- The embedding of the reals into the extended reals goes through a finite sum (by induction on the
    index set, the embedding being additive). -/
theorem coe_sum_real {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- Where an update lands: update `j` lands at operand index `i` exactly when, on every operand axis,
    start plus window coordinate (an integer) IS `i`'s coordinate. If the sums are all in range the landing
    index has them as coordinates; if one is out of range the update is dropped, and then no `i` can have
    that sum as a coordinate, a coordinate being in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hs a
      have := congrFun (Option.some.inj hs) a
      have h1 := congrArg Fin.val this
      simp only at h1
      have := h a
      omega
    · intro hs
      congr 1
      funext a
      apply Fin.ext
      have := hs a
      simp only
      omega
  · rename_i h
    constructor
    · intro hs; exact absurd hs (by simp)
    · intro hs
      exfalso; apply h
      intro a
      have := hs a
      have := (i a).isLt
      omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The two scatters' dimension numbers, read axis by axis -/

local notation "S3" => (⟨3, ![2, 8192, 8192]⟩ : Shape)
local notation "S2" => (⟨2, ![8192, 8192]⟩ : Shape)
local notation "SI" => (⟨2, ![262144, 2]⟩ : Shape)
local notation "U3" => (⟨2, ![2, 262144]⟩ : Shape)
local notation "U2" => (⟨1, ![262144]⟩ : Shape)

/-- The stacked scatter's dimension numbers: updates `[2, 262144]` whose axis 0 is the one window axis (it runs
    over the planes, operand axis 0) and whose axis 1 counts the scatter indices; operand axes 1 and 2 are
    inserted and are where the two components of a scatter index go. -/
abbrev mk3 (wf : ScatterDims.WF S3 SI U3 [0] [1, 2] [1, 2] 1) : ScatterDims S3 SI U3 :=
  ScatterDims.mk [0] [1, 2] [1, 2] 1 wf
/-- The one-plane scatter's dimension numbers: updates `[262144]`, no window axis; both operand axes are
    inserted and take the two components of a scatter index. -/
abbrev mk2 (wf : ScatterDims.WF S2 SI U2 [] [0, 1] [0, 1] 1) : ScatterDims S2 SI U2 :=
  ScatterDims.mk [] [0, 1] [0, 1] 1 wf

/-- Update `(q, e)` of the stacked scatter reads component `k` of its start index at scatter-indices entry
    `(e, k)`: the only scatter-indices axis that is not the index vector's is axis 0, and it is read by the
    update's one scatter axis, axis 1. -/
theorem siIdx3 (wf : ScatterDims.WF S3 SI U3 [0] [1, 2] [1, 2] 1) (q : Fin 2) (e : Fin 262144) (k : Fin 2) :
    (mk3 wf).siIdx (ix2 q e) k = ix2 e k := by
  funext b
  match b with
  | ⟨0, _⟩ =>
    unfold ScatterDims.siIdx
    rw [dif_neg (show ¬ (0 : Nat) = 1 by decide)]
    apply Fin.ext
    rfl
  | ⟨1, _⟩ =>
    unfold ScatterDims.siIdx
    rw [dif_pos (show (1 : Nat) = 1 from rfl)]
    rfl

/-- Update `e` of the one-plane scatter reads component `k` of its start index at the same entry `(e, k)`. -/
theorem siIdx2 (wf : ScatterDims.WF S2 SI U2 [] [0, 1] [0, 1] 1) (e : Fin 262144) (k : Fin 2) :
    (mk2 wf).siIdx (ix1 e) k = ix2 e k := by
  funext b
  match b with
  | ⟨0, _⟩ =>
    unfold ScatterDims.siIdx
    rw [dif_neg (show ¬ (0 : Nat) = 1 by decide)]
    apply Fin.ext
    rfl
  | ⟨1, _⟩ =>
    unfold ScatterDims.siIdx
    rw [dif_pos (show (1 : Nat) = 1 from rfl)]
    rfl

section three
variable (wf : ScatterDims.WF S3 SI U3 [0] [1, 2] [1, 2] 1) (q : Fin 2) (e : Fin 262144) (idx : IVec SI 32)

/-- The plane axis is named by no component of a scatter index: its window starts at 0 … -/
theorem start3_0 : (mk3 wf).start (ix2 q e) idx 0 = 0 := by
  unfold ScatterDims.start
  exact dif_neg (show (0 : Fin (Shape.rank S3)) ∉ [1, 2] by decide)

/-- … the row axis takes component 0 of scatter index `e` … -/
theorem start3_1 : (mk3 wf).start (ix2 q e) idx 1 = (idx (ix2 e 0)).toInt := by
  unfold ScatterDims.start
  rw [dif_pos (show (1 : Fin (Shape.rank S3)) ∈ [1, 2] by decide)]
  exact congrArg (fun t => (idx t).toInt) (siIdx3 wf q e _)

/-- … and the column axis component 1. -/
theorem start3_2 : (mk3 wf).start (ix2 q e) idx 2 = (idx (ix2 e 1)).toInt := by
  unfold ScatterDims.start
  rw [dif_pos (show (2 : Fin (Shape.rank S3)) ∈ [1, 2] by decide)]
  exact congrArg (fun t => (idx t).toInt) (siIdx3 wf q e _)

/-- The plane axis is the one operand axis that is not inserted: its window coordinate is the update's
    coordinate on its window axis, `q` … -/
theorem window3_0 : (mk3 wf).window (ix2 q e) 0 = q.val := by
  unfold ScatterDims.window
  rw [dif_pos (show (0 : Fin (Shape.rank S3)) ∈ Shape.kept S3 [1, 2] by decide)]
  rfl

/-- … and the inserted row axis … -/
theorem window3_1 : (mk3 wf).window (ix2 q e) 1 = 0 := by
  unfold ScatterDims.window
  exact dif_neg (show (1 : Fin (Shape.rank S3)) ∉ Shape.kept S3 [1, 2] by decide)

/-- … and column axis have window coordinate 0. -/
theorem window3_2 : (mk3 wf).window (ix2 q e) 2 = 0 := by
  unfold ScatterDims.window
  exact dif_neg (show (2 : Fin (Shape.rank S3)) ∉ Shape.kept S3 [1, 2] by decide)

end three

section two
variable (wf : ScatterDims.WF S2 SI U2 [] [0, 1] [0, 1] 1) (e : Fin 262144) (idx : IVec SI 32)

/-- In the one-plane scatter the row axis takes component 0 of scatter index `e` … -/
theorem start2_0 : (mk2 wf).start (ix1 e) idx 0 = (idx (ix2 e 0)).toInt := by
  unfold ScatterDims.start
  rw [dif_pos (show (0 : Fin (Shape.rank S2)) ∈ [0, 1] by decide)]
  exact congrArg (fun t => (idx t).toInt) (siIdx2 wf e _)

/-- … the column axis component 1 … -/
theorem start2_1 : (mk2 wf).start (ix1 e) idx 1 = (idx (ix2 e 1)).toInt := by
  unfold ScatterDims.start
  rw [dif_pos (show (1 : Fin (Shape.rank S2)) ∈ [0, 1] by decide)]
  exact congrArg (fun t => (idx t).toInt) (siIdx2 wf e _)

/-- … and both axes, being inserted, have window coordinate 0. -/
theorem window2_0 : (mk2 wf).window (ix1 e) 0 = 0 := by
  unfold ScatterDims.window
  exact dif_neg (show (0 : Fin (Shape.rank S2)) ∉ Shape.kept S2 [0, 1] by decide)

theorem window2_1 : (mk2 wf).window (ix1 e) 1 = 0 := by
  unfold ScatterDims.window
  exact dif_neg (show (1 : Fin (Shape.rank S2)) ∉ Shape.kept S2 [0, 1] by decide)

end two

/-- Update `(q, e)` of the stacked scatter lands at `(p, r, c)` exactly when `q = p` and update `e` of the
    one-plane scatter lands at `(r, c)`: on the plane axis the sum start + window is `0 + q`, on the row and
    column axes it is the scatter index's component plus 0 in both scatters. -/
theorem land3 (wf3 : ScatterDims.WF S3 SI U3 [0] [1, 2] [1, 2] 1) (wf2 : ScatterDims.WF S2 SI U2 [] [0, 1] [0, 1] 1)
    (q p : Fin 2) (e : Fin 262144) (r c : Fin 8192) (idx : IVec SI 32) :
    (mk3 wf3).resultIdx? (ix2 q e) idx = some (ix3 p r c) ↔
      q = p ∧ (mk2 wf2).resultIdx? (ix1 e) idx = some (ix2 r c) := by
  rw [resultIdx?_eq_some_iff, resultIdx?_eq_some_iff]
  constructor
  · intro h
    have h0 : (0 : Int) + ((q.val : Nat) : Int) = ((p.val : Nat) : Int) := by
      have := h 0; rwa [start3_0, window3_0] at this
    have h1 : (idx (ix2 e 0)).toInt + ((0 : Nat) : Int) = ((r.val : Nat) : Int) := by
      have := h 1; rwa [start3_1, window3_1] at this
    have h2 : (idx (ix2 e 1)).toInt + ((0 : Nat) : Int) = ((c.val : Nat) : Int) := by
      have := h 2; rwa [start3_2, window3_2] at this
    refine ⟨Fin.ext (by omega), fun a => ?_⟩
    match a with
    | ⟨0, _⟩ =>
      show (mk2 wf2).start (ix1 e) idx 0 + (((mk2 wf2).window (ix1 e) 0 : Nat) : Int) = ((r.val : Nat) : Int)
      rw [start2_0, window2_0]; exact h1
    | ⟨1, _⟩ =>
      show (mk2 wf2).start (ix1 e) idx 1 + (((mk2 wf2).window (ix1 e) 1 : Nat) : Int) = ((c.val : Nat) : Int)
      rw [start2_1, window2_1]; exact h2
  · rintro ⟨rfl, h⟩
    have h1 : (idx (ix2 e 0)).toInt + ((0 : Nat) : Int) = ((r.val : Nat) : Int) := by
      have := h 0; rwa [start2_0, window2_0] at this
    have h2 : (idx (ix2 e 1)).toInt + ((0 : Nat) : Int) = ((c.val : Nat) : Int) := by
      have := h 1; rwa [start2_1, window2_1] at this
    intro a
    match a with
    | ⟨0, _⟩ =>
      show (mk3 wf3).start (ix2 q e) idx 0 + (((mk3 wf3).window (ix2 q e) 0 : Nat) : Int) = ((q.val : Nat) : Int)
      rw [start3_0, window3_0]; omega
    | ⟨1, _⟩ =>
      show (mk3 wf3).start (ix2 q e) idx 1 + (((mk3 wf3).window (ix2 q e) 1 : Nat) : Int) = ((r.val : Nat) : Int)
      rw [start3_1, window3_1]; exact h1
    | ⟨2, _⟩ =>
      show (mk3 wf3).start (ix2 q e) idx 2 + (((mk3 wf3).window (ix2 q e) 2 : Nat) : Int) = ((c.val : Nat) : Int)
      rw [start3_2, window3_2]; exact h2

end ScatterAux

/-- Plane `p` of the stacked scatter-add is the one-plane scatter-add of row `p` of the updates. -/
theorem scatter_plane
    (d3 : ScatterDims (⟨3, ![2, 8192, 8192]⟩ : Shape) (⟨2, ![262144, 2]⟩ : Shape) (⟨2, ![2, 262144]⟩ : Shape))
    (d2 : ScatterDims (⟨2, ![8192, 8192]⟩ : Shape) (⟨2, ![262144, 2]⟩ : Shape) (⟨1, ![262144]⟩ : Shape))
    (h3 : d3.updateWindowDims = [0] ∧ d3.insertedWindowDims = [1, 2] ∧ d3.scatterDimsToOperandDims = [1, 2] ∧ d3.indexVectorDim = 1)
    (h2 : d2.updateWindowDims = [] ∧ d2.insertedWindowDims = [0, 1] ∧ d2.scatterDimsToOperandDims = [0, 1] ∧ d2.indexVectorDim = 1)
    (idx : IVec (⟨2, ![262144, 2]⟩ : Shape) 32)
    (U : (⟨2, ![2, 262144]⟩ : Shape).Idx → EReal) (u : (⟨1, ![262144]⟩ : Shape).Idx → EReal)
    (p : Fin 2) (hU : ∀ e : Fin 262144, U (ix2 p e) = u (ix1 e)) (r c : Fin 8192) :
    Ideal.hostScatterAdd d3 (fun _ => 0) idx U (ix3 p r c) = Ideal.hostScatterAdd d2 (fun _ => 0) idx u (ix2 r c) := by
  -- the dimension numbers are the literal lists
  obtain ⟨uw3, iw3, sd3, iv3, wf3⟩ := d3
  obtain ⟨uw2, iw2, sd2, iv2, wf2⟩ := d2
  dsimp only at h3 h2
  obtain ⟨rfl, rfl, rfl, rfl⟩ := h3
  obtain ⟨rfl, rfl, rfl, rfl⟩ := h2
  -- both sides are 0 + the sum of the updates that land on the entry; write each sum over all update
  -- indices with the landing condition inside, and the stacked one as a double sum over (plane, e)
  simp only [Ideal.hostScatterAdd, zero_add]
  rw [Finset.sum_filter, Finset.sum_filter, sum_idx2, ScatterAux.sum_idx1]
  -- only the plane q = p contributes, and there the summands agree term by term
  rw [Fintype.sum_eq_single p]
  · refine Finset.sum_congr rfl fun e _ => ?_
    rw [hU e]
    refine if_congr ?_ rfl rfl
    rw [ScatterAux.land3 wf3 wf2]
    exact ⟨fun h => h.2, fun h => ⟨rfl, h⟩⟩
  · intro q hq
    refine Finset.sum_eq_zero fun e _ => if_neg ?_
    rw [ScatterAux.land3 wf3 wf2]
    exact fun h => hq h.1

/-- Scaling a scatter-add of the constant `a` into zeros by `b` (both real) is the scatter-add of `a · b`. -/
theorem scatter_const_mul
    (d2 : ScatterDims (⟨2, ![8192, 8192]⟩ : Shape) (⟨2, ![262144, 2]⟩ : Shape) (⟨1, ![262144]⟩ : Shape))
    (idx : IVec (⟨2, ![262144, 2]⟩ : Shape) 32) (a b : ℝ) (i : (⟨2, ![8192, 8192]⟩ : Shape).Idx) :
    Ideal.hostScatterAdd d2 (fun _ => 0) idx (fun _ => (a : EReal)) i * (b : EReal)
      = Ideal.hostScatterAdd d2 (fun _ => 0) idx (fun _ => ((a * b : ℝ) : EReal)) i := by
  -- both sums are sums of real constants: pull the embedding out, and in the reals a sum times b is the
  -- sum of the products
  unfold Ideal.hostScatterAdd
  rw [zero_add, zero_add, ← ScatterAux.coe_sum_real, ← ScatterAux.coe_sum_real, ← EReal.coe_mul, Finset.sum_mul]

end Cert.Spec

end
-- ==== Proof.HostChain.lean ====
/-
  The stacked array region 1 reads, plane by plane, in the reference's terms. The host operations between
  the two regions are the reference's own, operation for operation (with two changes of float format, the
  identity over the extended reals), up to the scatter: the program scatters the edge values and the constant
  one half into a stack of two planes at once, the reference scatters the edge values into one array and ones
  into another and halves the second. Plane 0 is the reference's dense array; plane 1 is its halved counts.
-/
import proofs.«412872_j40175124086871_3_alg».proof.Proof.KI.Access
import proofs.«412872_j40175124086871_3_alg».proof.Proof.Gen.ReferenceIdeal.Read
import proofs.«412872_j40175124086871_3_alg».proof.Proof.Scatter
import proofs.«412872_j40175124086871_3_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (outs : Outs (F := Ideal))

/-! ## The host operations' values, named

The pieces the host operations between the two regions compute, each as a function of what it reads: the two rows of
the edge array, an endpoint wrapped into the node range, the per-edge product of the absolute difference of two
gathered rows with the vector, its maximum with zero, the two stacked rows of updates, the scatter indices, and the
zeros scattered into. -/

/-- An edge endpoint read modulo the node count: a negative index has 8192 added. -/
def wrapIdx (x : IVec S262144 32) : IVec S262144 32 :=
  select (cmpi .slt x (broadcastInDim S262144 ![] bcast_S_S262144 (constantI S_ 32 0#32)))
    (addi x (broadcastInDim S262144 ![] bcast_S_S262144 (constantI S_ 32 8192#32))) x

/-- Row 0 of the edge array: the source endpoints. -/
def edgeRow0 (e : IVec S2x262144 32) : IVec S262144 32 :=
  shapeCast S262144 (extractStridedSlice S1x262144 ![0, 0] e slices_S2x262144_S1x262144_0_0) shapeCasts_S1x262144_S262144

/-- Row 1 of the edge array: the destination endpoints. -/
def edgeRow1 (e : IVec S2x262144 32) : IVec S262144 32 :=
  shapeCast S262144 (extractStridedSlice S1x262144 ![1, 0] e slices_S2x262144_S1x262144_1_0) shapeCasts_S1x262144_S262144

/-- The wrapped endpoints as a one-column array. -/
def colIdx (x : IVec S262144 32) : IVec S262144x1 32 :=
  broadcastInDim S262144x1 ![0] bcast_S262144_S262144x1_0 (wrapIdx x)

/-- Per edge, the product of |h[src] − h[dst]| with the vector a (both passed through a change of float format). -/
def edgeDot (hh : FVec Ideal S8192x128 .f32) (a : FVec Ideal S128x1 .f32) (s d : IVec S262144 32) : FVec Ideal S262144x1 .f32 :=
  Host.dotGeneral (F := Ideal) dot_S262144x128_S128x1_S262144x1_1_0_0_1_n_n none
    (truncf .bf16 (Host.absf (F := Ideal) (subf
      (Host.gather gather_S8192x128_S262144x1_S262144x128_1_0_n_n_0_1_1128 hh (colIdx s))
      (Host.gather gather_S8192x128_S262144x1_S262144x128_1_0_n_n_0_1_1128 hh (colIdx d)))) bitsLt_bf16_f32)
    (truncf .bf16 a bitsLt_bf16_f32)

/-- The maximum with zero, elementwise. -/
def relu1 (v : FVec Ideal S262144x1 .f32) : FVec Ideal S262144x1 .f32 :=
  maximumf v (broadcastInDim S262144x1 ![] bcast_S_S262144x1 (constant (F := Ideal) S_ .f32 0x00000000#32))

/-- The two rows of updates: the edge values, and the constant one half. -/
def updOf (v : FVec Ideal S262144x1 .f32) : FVec Ideal S2x262144 .f32 :=
  concatenate S2x262144 0
    [⟨S1x262144, broadcastInDim S1x262144 ![1] bcast_S262144_S1x262144_1 (shapeCast S262144 v shapeCasts_S262144x1_S262144)⟩,
     ⟨S1x262144, broadcastInDim S1x262144 ![1] bcast_S262144_S1x262144_1
        (broadcastInDim S262144 ![] bcast_S_S262144 (constant (F := Ideal) S_ .f32 0x3F000000#32))⟩]
    concatenates_S1x262144_S1x262144_S2x262144_d0

/-- The scatter indices: per edge, the wrapped source and the wrapped destination. -/
def ixOf (s d : IVec S262144 32) : IVec S262144x2 32 :=
  concatenate S262144x2 1 [⟨S262144x1, colIdx s⟩, ⟨S262144x1, colIdx d⟩] concatenates_S262144x1_S262144x1_S262144x2_d1

/-- The two planes of zeros the scatter adds into. -/
def zeros3 : FVec Ideal S2x8192x8192 .f32 :=
  broadcastInDim S2x8192x8192 ![] bcast_S_S2x8192x8192 (constant (F := Ideal) S_ .f32 0x00000000#32)

/-! ## What each stretch of host operations leaves

Each stretch is read from ANY contents of the buffers before it: an operation's result buffer holds its function of
its operands' buffers, every other buffer what it held. -/

set_option maxHeartbeats 4000000 in
/-- After the first stretch the per-edge products are in place … -/
theorem stage1_v23 (W : Valuation τ sig (Elt Ideal)) :
    (StableHlo.after hostOps1 W (Proc.devRef .tc main_v23) : S262144x1.Idx → EReal)
      = edgeDot (W (Proc.devRef .tc main_v0)) (W (Proc.devRef .tc main_arg2))
          (edgeRow0 (W (Proc.devRef .tc main_arg3))) (edgeRow1 (W (Proc.devRef .tc main_arg3))) := by
  after_results_simp
  rfl

set_option maxHeartbeats 4000000 in
/-- … and so are the source endpoints … -/
theorem stage1_v2 (W : Valuation τ sig (Elt Ideal)) :
    (StableHlo.after hostOps1 W (Proc.devRef .tc main_v2) : S262144.Idx → BitVec 32)
      = edgeRow0 (W (Proc.devRef .tc main_arg3)) := by
  after_results_simp
  rfl

set_option maxHeartbeats 4000000 in
/-- … and the destination endpoints. -/
theorem stage1_v4 (W : Valuation τ sig (Elt Ideal)) :
    (StableHlo.after hostOps1 W (Proc.devRef .tc main_v4) : S262144.Idx → BitVec 32)
      = edgeRow1 (W (Proc.devRef .tc main_arg3)) := by
  after_results_simp
  rfl

set_option maxHeartbeats 4000000 in
/-- The second stretch takes the maximum with zero. -/
theorem stage2_v24 (W : Valuation τ sig (Elt Ideal)) :
    (StableHlo.after hostOps1_1 W (Proc.devRef .tc main_v24) : S262144x1.Idx → EReal)
      = relu1 (W (Proc.devRef .tc main_v23)) := by
  after_results
  rfl

set_option maxHeartbeats 4000000 in
/-- The third stretch stacks the updates, rebuilds the scatter indices and scatter-adds into the two planes of zeros. -/
theorem stage3_v44 (W : Valuation τ sig (Elt Ideal)) :
    (StableHlo.after hostOps1_2 W (Proc.devRef .tc main_v44) : S2x8192x8192.Idx → EReal)
      = Host.scatterAdd (F := Ideal) scatter_S2x8192x8192_S262144x2_S2x262144_0_12_12_1 zeros3
          (ixOf (W (Proc.devRef .tc main_v2)) (W (Proc.devRef .tc main_v4))) (updOf (W (Proc.devRef .tc main_v24))) := by
  after_results
  rfl

/-! ## The stretches joined

The endpoint rows are written in the first stretch and not again; the second stretch reads the first's product, the
third the second's maximum; the arguments are never written, and region 0's result is not written after region 0. -/

/-- Before the third stretch the source endpoints are row 0 of the edge array. -/
theorem V3_v2 (c : Dev nD) : (V3 m outs c main_v2 : S262144.Idx → BitVec 32) = edgeRow0 (m ((c : Thread nD τ).loc main_arg3)) :=
  (V3_of m outs c main_v2 (by decide)).trans <| (stage1_v2 (V1 m outs c)).trans <|
    congrArg edgeRow0 ((V1_of m outs c main_arg3 (by decide)).trans rfl)

/-- Before the third stretch the destination endpoints are row 1 of the edge array. -/
theorem V3_v4 (c : Dev nD) : (V3 m outs c main_v4 : S262144.Idx → BitVec 32) = edgeRow1 (m ((c : Thread nD τ).loc main_arg3)) :=
  (V3_of m outs c main_v4 (by decide)).trans <| (stage1_v4 (V1 m outs c)).trans <|
    congrArg edgeRow1 ((V1_of m outs c main_arg3 (by decide)).trans rfl)

/-- After the first stretch: the per-edge products, of region 0's result, the vector and the edge array. -/
theorem V2_v23 (c : Dev nD) : (V2 m outs c main_v23 : S262144x1.Idx → EReal)
    = edgeDot (outs 1 main_v0 c) (m ((c : Thread nD τ).loc main_arg2))
        (edgeRow0 (m ((c : Thread nD τ).loc main_arg3))) (edgeRow1 (m ((c : Thread nD τ).loc main_arg3))) := by
  refine (stage1_v23 (V1 m outs c)).trans ?_
  rw [V1_v0 m outs c, V1_of m outs c main_arg2 (by decide), V1_of m outs c main_arg3 (by decide)]

/-- After the second stretch: their maximum with zero. -/
theorem V3_v24 (c : Dev nD) : (V3 m outs c main_v24 : S262144x1.Idx → EReal)
    = relu1 (edgeDot (outs 1 main_v0 c) (m ((c : Thread nD τ).loc main_arg2))
        (edgeRow0 (m ((c : Thread nD τ).loc main_arg3))) (edgeRow1 (m ((c : Thread nD τ).loc main_arg3)))) :=
  (stage2_v24 (V2 m outs c)).trans (congrArg relu1 (V2_v23 m outs c))

/-- The stacked array region 1 reads is one scatter-add, into two planes of zeros, of the stacked updates at the scatter indices. -/
theorem V4_v44 (c : Dev nD) : (V4 m outs c main_v44 : S2x8192x8192.Idx → EReal)
    = Host.scatterAdd (F := Ideal) scatter_S2x8192x8192_S262144x2_S2x262144_0_12_12_1 zeros3
        (ixOf (edgeRow0 (m ((c : Thread nD τ).loc main_arg3))) (edgeRow1 (m ((c : Thread nD τ).loc main_arg3))))
        (updOf (relu1 (edgeDot (outs 1 main_v0 c) (m ((c : Thread nD τ).loc main_arg2))
          (edgeRow0 (m ((c : Thread nD τ).loc main_arg3))) (edgeRow1 (m ((c : Thread nD τ).loc main_arg3)))))) := by
  refine (stage3_v44 (V3 m outs c)).trans ?_
  rw [V3_v2 m outs c, V3_v4 m outs c, V3_v24 m outs c]

/-! ## The same values in the reference's terms

The reference applies the same operations to its own product, without the two changes of float format; over the
extended reals a change of format is the identity, so the wrapped endpoints, the scatter indices (which the reference
builds twice) and the edge values are the reference's, term for term. -/

section RefEq
open Cert.ReferenceIdeal.Read

/-- The wrapped source endpoints, as a column. -/
theorem colIdx0_ref (e : IVec S2x262144 32) : colIdx (edgeRow0 e) = val_main_v10 (F := Ideal) e := rfl
/-- The wrapped destination endpoints, as a column. -/
theorem colIdx1_ref (e : IVec S2x262144 32) : colIdx (edgeRow1 e) = val_main_v17 (F := Ideal) e := rfl
/-- The scatter indices are the reference's, for its first scatter … -/
theorem ixOf_ref37 (e : IVec S2x262144 32) : ixOf (edgeRow0 e) (edgeRow1 e) = val_main_v37 (F := Ideal) e := rfl
/-- … and for its second. -/
theorem ixOf_ref64 (e : IVec S2x262144 32) : ixOf (edgeRow0 e) (edgeRow1 e) = val_main_v64 (F := Ideal) e := rfl

/-- The per-edge products of the reference's own product are the reference's: a change of float format on each operand of the product changes nothing. -/
theorem edgeDot_ref (x0 : FVec Ideal Cert.ReferenceIdeal.S8192x256 .f32) (x1 : FVec Ideal Cert.ReferenceIdeal.S256x128 .f32)
    (a : FVec Ideal S128x1 .f32) (e : IVec S2x262144 32) :
    edgeDot (val_main_v0 (F := Ideal) x0 x1) a (edgeRow0 e) (edgeRow1 e) = val_main_v21 (F := Ideal) x0 x1 a e := by
  unfold edgeDot val_main_v21 val_main_v20 val_main_v19 val_main_v11 val_main_v18
  rw [colIdx0_ref, colIdx1_ref]
  rfl

/-- The edge values — the maximum with zero, as a vector over the edges — are the reference's. -/
theorem edgeVal_ref (x0 : FVec Ideal Cert.ReferenceIdeal.S8192x256 .f32) (x1 : FVec Ideal Cert.ReferenceIdeal.S256x128 .f32)
    (a : FVec Ideal S128x1 .f32) (e : IVec S2x262144 32) :
    shapeCast S262144 (relu1 (edgeDot (val_main_v0 (F := Ideal) x0 x1) a (edgeRow0 e) (edgeRow1 e))) shapeCasts_S262144x1_S262144
      = val_main_v23 (F := Ideal) x0 x1 a e := by
  rw [edgeDot_ref]
  rfl

end RefEq

/-! ## The constants -/

/-- The word 0x3F000000 has sign 0, exponent field 126 and fraction 0: it is 2^23 · 2^(126 − 127 − 23), one half. -/
theorem ofBits_half : Ideal.ofBits .f32 0x3F000000#32 = ((1 / 2 : ℝ) : EReal) := by
  have hs : ((0x3F000000#32).extractLsb' (8 + 23) 1 == 1#1) = false := by decide
  have hex : ((0x3F000000#32).extractLsb' 23 8).toNat = 126 := by decide
  have hfr : ((0x3F000000#32).extractLsb' 0 23).toNat = 0 := by decide
  show Ideal.ieee 8 23 (0x3F000000#32) = _
  unfold Ideal.ieee
  simp only [hs, hex, hfr]
  norm_num

/-- The word 0x3F800000 has sign 0, exponent field 127 and fraction 0: it is 2^23 · 2^(127 − 127 − 23), one. -/
theorem ofBits_one' : Ideal.ofBits .f32 0x3F800000#32 = ((1 : ℝ) : EReal) := by
  have hs : ((0x3F800000#32).extractLsb' (8 + 23) 1 == 1#1) = false := by decide
  have hex : ((0x3F800000#32).extractLsb' 23 8).toNat = 127 := by decide
  have hfr : ((0x3F800000#32).extractLsb' 0 23).toNat = 0 := by decide
  show Ideal.ieee 8 23 (0x3F800000#32) = _
  unfold Ideal.ieee
  simp only [hs, hex, hfr]
  norm_num

/-- The array scattered into is zero at every entry. -/
theorem zeros3_eq : zeros3 = fun _ => (0 : EReal) := by
  funext j
  show Ideal.ofBits .f32 0x00000000#32 = 0
  exact Ideal.ofBits_zero_f32

/-! ## The two rows of updates

An index of the stacked updates with first coordinate 0 falls in the first piece of the concatenation, one with first
coordinate 1 in the second, at the same edge. -/

/-- Row 0 of the updates is the edge values, edge by edge. -/
theorem updOf_row0 (v : FVec Ideal S262144x1 .f32) (k : Fin 262144) :
    updOf v (ix2 (0 : Fin 2) k) = shapeCast S262144 v shapeCasts_S262144x1_S262144 (ix1 k) := by
  unfold updOf
  refine (concatenate_pair_apply_left (t := S2x262144) (s₁ := S1x262144) (s₂ := S1x262144) (0 : Fin 2) _ _
    concatenates_S1x262144_S1x262144_S2x262144_d0 (ix2 (0 : Fin 2) k) rfl (ix2 (0 : Fin 1) k) ?_).trans ?_
  · intro b
    match b with
    | ⟨0, _⟩ => rfl
    | ⟨1, _⟩ => rfl
  · refine broadcastInDim_apply ![1] bcast_S262144_S1x262144_1 _ (ix2 (0 : Fin 1) k) (ix1 k) ?_
    intro a
    match a with
    | ⟨0, _⟩ => exact (if_neg (show ¬ (262144 : ℕ) = 1 by decide)).symm

/-- Row 1 of the updates is one half at every edge. -/
theorem updOf_row1 (v : FVec Ideal S262144x1 .f32) (k : Fin 262144) :
    updOf v (ix2 (1 : Fin 2) k) = ((1 / 2 : ℝ) : EReal) := by
  unfold updOf
  refine (concatenate_pair_apply_right (t := S2x262144) (s₁ := S1x262144) (s₂ := S1x262144) (0 : Fin 2) _ _
    concatenates_S1x262144_S1x262144_S2x262144_d0 (ix2 (1 : Fin 2) k) rfl rfl (ix2 (0 : Fin 1) k) ?_ ?_).trans ?_
  · intro b hb
    match b with
    | ⟨0, _⟩ => exact absurd rfl hb
    | ⟨1, _⟩ => rfl
  · rfl
  · show Ideal.ofBits .f32 0x3F000000#32 = _
    exact ofBits_half

/-! ## The two planes

The program scatter-adds both rows of updates at once into two planes; plane p receives exactly row p, at the row and
column the scatter indices name. Row 0 is the edge values, which the reference scatters into its dense array. Row 1 is
one half at every edge; the reference scatters ones and halves the result, and halving a sum of ones is summing
halves. -/

/-- Over the extended reals the host's scatter-add is the exact one. -/
theorem scatterAdd_ideal {s si su : Shape} (d : ScatterDims s si su) (x : FVec Ideal s .f32) (idx : IVec si 32) (upd : FVec Ideal su .f32) :
    Host.scatterAdd (F := Ideal) d x idx upd = Ideal.hostScatterAdd d x idx upd :=
  Ideal.hostScatterAdd_def d .single x idx upd

section Planes
open Cert.ReferenceIdeal.Read

/-- The reference's two arrays of zeros are zero at every entry. -/
theorem ref_v24_eq : val_main_v24 (F := Ideal) = fun _ => (0 : EReal) := by
  funext j
  show Ideal.ofBits .f32 0x00000000#32 = 0
  exact Ideal.ofBits_zero_f32

theorem ref_v50_eq : val_main_v50 (F := Ideal) = fun _ => (0 : EReal) := by
  funext j
  show Ideal.ofBits .f32 0x00000000#32 = 0
  exact Ideal.ofBits_zero_f32

/-- The reference's vector of ones is one at every edge. -/
theorem ref_v51_eq : val_main_v51 (F := Ideal) = fun _ => ((1 : ℝ) : EReal) := by
  funext j
  show Ideal.ofBits .f32 0x3F800000#32 = _
  exact ofBits_one'

/-- The reference's array of halves is one half at every entry. -/
theorem ref_v66_apply (j : Cert.ReferenceIdeal.S8192x8192.Idx) : val_main_v66 (F := Ideal) j = ((1 / 2 : ℝ) : EReal) := by
  show Ideal.ofBits .f32 0x3F000000#32 = _
  exact ofBits_half

end Planes

/-- Plane 0 of the stacked array is the reference's dense scatter result, when region 0's result is the reference's product. -/
theorem plane0 (c : Dev nD) (x0 : (⟨Cert.ReferenceIdeal.S8192x256, .f32⟩ : BufTy).Contents (Elt Ideal)) (x1 : (⟨Cert.ReferenceIdeal.S256x128, .f32⟩ : BufTy).Contents (Elt Ideal))
    (h : outs 1 main_v0 c = Cert.ReferenceIdeal.Read.val_main_v0 (F := Ideal) x0 x1) :
    (fun i : (⟨2, ![8192, 8192]⟩ : Shape).Idx => V4 m outs c main_v44 (ix3 (0 : Fin 2) (i 0 : Fin 8192) (i 1 : Fin 8192)))
      = Cert.ReferenceIdeal.Read.val_main_v38 (F := Ideal) x0 x1 (m ((c : Thread nD τ).loc main_arg2)) (m ((c : Thread nD τ).loc main_arg3)) := by
  funext i
  obtain ⟨a, b, rfl⟩ : ∃ a b, i = ix2 a b := ⟨i 0, i 1, eq_ix2 i⟩
  refine (congrFun (V4_v44 m outs c) (ix3 (0 : Fin 2) a b)).trans ?_
  unfold Cert.ReferenceIdeal.Read.val_main_v38
  rw [h, zeros3_eq, scatterAdd_ideal, scatterAdd_ideal, ref_v24_eq, ixOf_ref37]
  exact Cert.Spec.scatter_plane scatter_S2x8192x8192_S262144x2_S2x262144_0_12_12_1
    Cert.ReferenceIdeal.scatter_S8192x8192_S262144x2_S262144_n_01_01_1 ⟨rfl, rfl, rfl, rfl⟩ ⟨rfl, rfl, rfl, rfl⟩ _ _ _
    (0 : Fin 2) (fun k => by rw [updOf_row0, edgeVal_ref]) a b

/-- Plane 1 of the stacked array is the reference's halved count array. -/
theorem plane1 (c : Dev nD) :
    (fun i : (⟨2, ![8192, 8192]⟩ : Shape).Idx => V4 m outs c main_v44 (ix3 (1 : Fin 2) (i 0 : Fin 8192) (i 1 : Fin 8192)))
      = Cert.ReferenceIdeal.Read.val_main_v67 (F := Ideal) (m ((c : Thread nD τ).loc main_arg3)) := by
  funext i
  obtain ⟨a, b, rfl⟩ : ∃ a b, i = ix2 a b := ⟨i 0, i 1, eq_ix2 i⟩
  refine (congrFun (V4_v44 m outs c) (ix3 (1 : Fin 2) a b)).trans ?_
  unfold Cert.ReferenceIdeal.Read.val_main_v67
  rw [mulf_apply, ref_v66_apply]
  unfold Cert.ReferenceIdeal.Read.val_main_v65
  rw [zeros3_eq, scatterAdd_ideal, scatterAdd_ideal, ref_v50_eq, ref_v51_eq, ixOf_ref64, Cert.Spec.scatter_const_mul, one_mul]
  exact Cert.Spec.scatter_plane scatter_S2x8192x8192_S262144x2_S2x262144_0_12_12_1
    Cert.ReferenceIdeal.scatter_S8192x8192_S262144x2_S262144_n_01_01_1 ⟨rfl, rfl, rfl, rfl⟩ ⟨rfl, rfl, rfl, rfl⟩ _ _ _
    (1 : Fin 2) (fun k => updOf_row1 _ k) a b

end Cert.KernelIdeal.Hand

end
-- ==== Proof.RefValue.lean ====
/-
  The reference's two results as the specification's functions: its first is the matrix product entry by
  entry; its second is, entry by entry, the row-wise softmax of its dense scatter result — the exponential of
  the entry less the row's maximum (a fold of max from −∞, then a max with −∞ again, which changes nothing)
  over the row's sum of those exponentials (from 0) — plus the scaled count array.
-/
import proofs.«412872_j40175124086871_3_alg».proof.Proof.Gen.ReferenceIdeal.Read
import proofs.«412872_j40175124086871_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The bit pattern of the reduction's initial value is −∞. -/
theorem negInf_bits : Ideal.ofBits .f32 0xFF800000#32 = (⊥ : EReal) := by
  simp [Ideal.ofBits, Ideal.ieee]

/-- Dropping axis 1 of the square array leaves its rows. -/
theorem rows_reduce : S8192x8192.Reduces [1] S8192 := by decide

/-- A fold of max over axis 1 of a square array, read at row `r`: the fold over the column coordinate `q` of
    the entry (r, q), from the initial value's one element. The index over row `r` with `q` inserted on the dropped
    axis is (r, q), coordinate by coordinate. -/
theorem fold_read (D : S8192x8192.Idx → Ideal .f32) (init : S_.Idx → Ideal .f32) (r : Fin 8192) :
    Host.reduce (FloatOps.maximumf (F := Ideal) (φ := .f32)) D init reducesTo_S8192x8192_S8192_d1 h_S_ (ix1 r)
      = (Finset.univ : Finset (Fin 8192)).fold max (init (Shape.Idx.first h_S_)) (fun q => D (ix2 r q)) := by
  refine (Host.reduce_eq_fold_single (s := S8192x8192) (t := S8192) (a := 1) (FloatOps.maximumf (F := Ideal) (φ := .f32)) D init
    reducesTo_S8192x8192_S8192_d1 rows_reduce h_S_ (ix1 r)).trans ?_
  have hf : (D ∘ rows_reduce.lift (ix1 r)) = fun q : Fin 8192 => D (ix2 r q) :=
    funext fun q => congrArg D (funext fun a => Fin.ext (by match a with | ⟨0, _⟩ => rfl | ⟨1, _⟩ => rfl))
  rw [hf]
  rfl

/-- The row maximum of the dense array at row `r`: the fold of max from −∞ over the row. -/
theorem v39_at (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) (r : Fin 8192) :
    val_main_v39 (F := Ideal) x0 x1 x2 x3 (ix1 r) = Cert.Spec.rowMax (val_main_v38 (F := Ideal) x0 x1 x2 x3) r := by
  unfold val_main_v39 Cert.Spec.rowMax
  generalize val_main_v38 (F := Ideal) x0 x1 x2 x3 = D
  refine (fold_read D (val_main_cst_7 (F := Ideal)) r).trans ?_
  rw [val_main_cst_7_apply, Ideal.ofBits_def, negInf_bits]

/-- The max of −∞ with the row maximum is the row maximum: max ⊥ x = x. -/
theorem v41_at (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) (r : Fin 8192) :
    val_main_v41 (F := Ideal) x0 x1 x2 x3 (ix1 r) = Cert.Spec.rowMax (val_main_v38 (F := Ideal) x0 x1 x2 x3) r := by
  rw [val_main_v41_apply, val_main_v40_apply, val_main_cst_8_apply, v39_at, Ideal.ofBits_def, negInf_bits, Ideal.maximumf_def,
    max_bot_left]

/-- Broadcast along the rows: every entry (r, q) of the broadcast array is row `r`'s maximum. -/
theorem v43_at (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) (r q : Fin 8192) :
    val_main_v43 (F := Ideal) x0 x1 x2 x3 (ix2 r q) = Cert.Spec.rowMax (val_main_v38 (F := Ideal) x0 x1 x2 x3) r := by
  have e : idx_main_v42 (idx_main_v43 (ix2 r q)) = ix1 r :=
    funext fun a => Fin.ext (by match a with | ⟨0, _⟩ => rfl)
  rw [val_main_v43_apply, val_main_v42_apply, e, v41_at]

/-- The exponential of the entry less its row's maximum. -/
theorem v45_at (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) (r q : Fin 8192) :
    val_main_v45 (F := Ideal) x0 x1 x2 x3 (ix2 r q) = Cert.Spec.expShift (val_main_v38 (F := Ideal) x0 x1 x2 x3) r q := by
  rw [val_main_v45_apply, val_main_v44_apply, v43_at, Ideal.hostUnary_exp_def, Ideal.subf_def]
  rfl

/-- The row's sum of those exponentials, from 0: 0 + s = s, and the summand at column `k` of row `r` is the entry (r, k). -/
theorem v46_at (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) (r : Fin 8192) :
    val_main_v46 (F := Ideal) x0 x1 x2 x3 (ix1 r)
      = ∑ k : Fin 8192, Cert.Spec.expShift (val_main_v38 (F := Ideal) x0 x1 x2 x3) r k := by
  rw [val_main_v46_apply, val_main_cst_9_apply, Ideal.ofBits_def, Ideal.ofBits_zero_f32, zero_add]
  refine Finset.sum_congr rfl fun k _ => ?_
  have e : idx_main_v46 (ix1 r) k = ix2 r k :=
    funext fun a => Fin.ext (by match a with | ⟨0, _⟩ => rfl | ⟨1, _⟩ => rfl)
  rw [e, v45_at]

/-- Broadcast along the rows: every entry (r, q) of the broadcast array is row `r`'s sum. -/
theorem v48_at (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) (r q : Fin 8192) :
    val_main_v48 (F := Ideal) x0 x1 x2 x3 (ix2 r q)
      = ∑ k : Fin 8192, Cert.Spec.expShift (val_main_v38 (F := Ideal) x0 x1 x2 x3) r k := by
  have e : idx_main_v47 (idx_main_v48 (ix2 r q)) = ix1 r :=
    funext fun a => Fin.ext (by match a with | ⟨0, _⟩ => rfl)
  rw [val_main_v48_apply, val_main_v47_apply, e, v46_at]

/-- The second result at the entry (r, q): the quotient of the shifted exponential by its row's sum, plus the
    scaled count. -/
theorem out1_at (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) (r q : Fin 8192) :
    val_main_v68 (F := Ideal) x0 x1 x2 x3 (ix2 r q)
      = Cert.Spec.softmaxPlus (val_main_v38 (F := Ideal) x0 x1 x2 x3) (val_main_v67 (F := Ideal) x3) (ix2 r q) := by
  rw [val_main_v68_apply, val_main_v49_apply, v45_at, v48_at, Ideal.addf_def, Ideal.hostDivf_def]
  rfl

/-- The reference's first result is the matrix product. -/
theorem out0_eq (x0 : (⟨S8192x256, .f32⟩ : BufTy).Contents (Elt Ideal)) (x1 : (⟨S256x128, .f32⟩ : BufTy).Contents (Elt Ideal)) :
    val_main_v0 (F := Ideal) x0 x1 = Cert.Spec.prod x0 x1 := by
  funext i
  rw [val_main_v0_apply]
  unfold Cert.Spec.prod
  refine Finset.sum_congr rfl fun k _ => ?_
  -- the left operand is read at (i 0, k), the right at (k, i 1)
  have el : lidx_main_v0 i k = ix2 (i 0 : Fin 8192) k :=
    funext fun a => Fin.ext (by match a with | ⟨0, _⟩ => rfl | ⟨1, _⟩ => rfl)
  have er : ridx_main_v0 i k = ix2 k (i 1 : Fin 128) :=
    funext fun a => Fin.ext (by match a with | ⟨0, _⟩ => rfl | ⟨1, _⟩ => rfl)
  rw [el, er]
  rfl

/-- The reference's second result is the row-wise softmax of its dense scatter result plus its scaled count array. -/
theorem out1_eq (x0 : (⟨S8192x256, .f32⟩ : BufTy).Contents (Elt Ideal)) (x1 : (⟨S256x128, .f32⟩ : BufTy).Contents (Elt Ideal))
    (x2 : (⟨S128x1, .f32⟩ : BufTy).Contents (Elt Ideal)) (x3 : (⟨S2x262144, .i32⟩ : BufTy).Contents (Elt Ideal)) :
    val_main_v68 (F := Ideal) x0 x1 x2 x3
      = Cert.Spec.softmaxPlus (val_main_v38 (F := Ideal) x0 x1 x2 x3) (val_main_v67 (F := Ideal) x3) := by
  funext i
  obtain ⟨r, q, rfl⟩ : ∃ (r q : Fin 8192), i = ix2 r q := ⟨i 0, i 1, eq_ix2 i⟩
  exact out1_at x0 x1 x2 x3 r q

end Cert.ReferenceIdeal.RefValue

end
-- ==== Proof.lean ====
/-
  The certificate's claims for the graph-learning layer: h = x · w by a blocked matrix product; edge values
  relu(|h[src] − h[dst]| · a); a dense scatter of the edge values; and the result softmax(dense) + ½ · counts.

  The program computes h in a kernel region of eight blocks of 1024 rows, each the product of its block of x
  with the whole of w, so h is the product entry by entry. Its host operations are the reference's own up to
  the scatter: it scatters the edge values and the constant ½ into a stack of two planes at once, where the
  reference scatters the edge values into one array and ones into another and halves the second. Plane 0 is the
  reference's dense array (an update lands on a plane's entry exactly when it lands on that entry of the
  one-plane scatter) and plane 1 its halved counts (a count of landings times ½ either way). The second kernel
  region takes 64 blocks of 128 whole rows of the two planes and stores the row-wise softmax of the first plus
  the second: the same function of the same arrays as the reference's softmax (its row maximum folded from −∞,
  its row sum from 0) plus its halved counts.

  Both printed programs run, fault nowhere and leave their arguments as launched: each region's body runs from
  the blocks its windows fetch to the one whole-block store of its result; the second region's two input windows
  read one array, which each holds at one half share and which is whole again at the region's end. The ideal
  pass rewrote nothing, so the preservation claim is empty.
-/
import proofs.«412872_j40175124086871_3_alg».proof.Defs
import proofs.«412872_j40175124086871_3_alg».proof.Proof.Gen.Kernel
import proofs.«412872_j40175124086871_3_alg».proof.Proof.Gen.Kernel.Skeleton
import proofs.«412872_j40175124086871_3_alg».proof.Proof.Gen.Kernel.Launch
import proofs.«412872_j40175124086871_3_alg».proof.Proof.Gen.Kernel.Regions
import proofs.«412872_j40175124086871_3_alg».proof.Proof.Gen.Kernel.Points
import proofs.«412872_j40175124086871_3_alg».proof.Proof.Gen.KernelIdeal
import proofs.«412872_j40175124086871_3_alg».proof.Proof.Gen.KernelIdeal.Skeleton
import proofs.«412872_j40175124086871_3_alg».proof.Proof.Gen.KernelIdeal.Launch
import proofs.«412872_j40175124086871_3_alg».proof.Proof.Gen.KernelIdeal.Regions
import proofs.«412872_j40175124086871_3_alg».proof.Proof.Gen.KernelIdeal.Points
import proofs.«412872_j40175124086871_3_alg».proof.Proof.Gen.ReferenceIdeal
import proofs.«412872_j40175124086871_3_alg».proof.Proof.Gen.Pre_finite_inputs
import proofs.«412872_j40175124086871_3_alg».proof.Proof.Gen.ReferenceIdeal.Run
import proofs.«412872_j40175124086871_3_alg».proof.Proof.Gen.ReferenceIdeal.Read
import proofs.«412872_j40175124086871_3_alg».proof.Proof.K.Run
import proofs.«412872_j40175124086871_3_alg».proof.Proof.KI.Run
import proofs.«412872_j40175124086871_3_alg».proof.Proof.KV0
import proofs.«412872_j40175124086871_3_alg».proof.Proof.KV1
import proofs.«412872_j40175124086871_3_alg».proof.Proof.HostChain
import proofs.«412872_j40175124086871_3_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

open Cert.KernelIdeal Cert.KernelIdeal.Gen Cert.KernelIdeal.Hand in
/-- Over the extended reals the program and the reference end with equal results: the matrix product, and the
    row-wise softmax of the dense scatter result plus the halved counts. -/
theorem algebraic : Cert.algebraic_KernelIdeal_ReferenceIdeal := by
  intro m ρ m' ρ' _ hagree
  obtain ⟨outs, h1, h5⟩ := exists_outs (F := Ideal) m
  refine ⟨fun c => Cert.Spec.prod (m ((c.tc : Thread nD τ).loc main_arg0)) (m ((c.tc : Thread nD τ).loc main_arg1)),
    fun c => Cert.Spec.softmaxPlus
      (Cert.ReferenceIdeal.Read.val_main_v38 (F := Ideal) (m ((c.tc : Thread nD τ).loc main_arg0)) (m ((c.tc : Thread nD τ).loc main_arg1))
        (m ((c.tc : Thread nD τ).loc main_arg2)) (m ((c.tc : Thread nD τ).loc main_arg3)))
      (Cert.ReferenceIdeal.Read.val_main_v67 (F := Ideal) (m ((c.tc : Thread nD τ).loc main_arg3))), ?_, ?_⟩
  · -- the program: the last valuation at the two results and the arguments
    refine (θ_run defs _ _).mono (fun r h c => ?_) (run_of m ρ outs h1 h5)
    have hv0 : outs 1 main_v0 c = Cert.Spec.prod (m ((c.tc : Thread nD τ).loc main_arg0)) (m ((c.tc : Thread nD τ).loc main_arg1)) :=
      (h1 c).trans (arr0_eq (Vb0 m) c)
    refine ⟨(h c _ (mem_uc main_v0 (by decide))).trans ((V5_v0 m outs c).trans hv0), ?_,
      (h c _ (mem_uc main_arg0 (by decide))).trans (V5_main_arg0 m outs c),
      (h c _ (mem_uc main_arg1 (by decide))).trans (V5_main_arg1 m outs c),
      (h c _ (mem_uc main_arg2 (by decide))).trans (V5_main_arg2 m outs c),
      (h c _ (mem_uc main_arg3 (by decide))).trans (V5_main_arg3 m outs c)⟩
    refine (h c _ (mem_uc main_v45 (by decide))).trans ((V5_v45 m outs c).trans ((h5 c).trans ((arr1_eq (Vb4 m outs) c).trans ?_)))
    rw [plane0 m outs c _ _ (hv0.trans (Cert.ReferenceIdeal.RefValue.out0_eq _ _).symm), plane1 m outs c]
  · -- the reference: its generated run, its two result terms read as the specification's functions
    refine (θ_run Cert.ReferenceIdeal.defs _ _).mono (fun r h c => ?_) (Cert.ReferenceIdeal.Value.run (F := Ideal) m' ρ')
    obtain ⟨h0, h68, ha0, ha1, ha2, ha3⟩ := h c
    obtain ⟨e0, e1, e2, e3⟩ := hagree c
    refine ⟨?_, ?_, ha0, ha1, ha2, ha3⟩
    · rw [h0, Cert.ReferenceIdeal.Read.val_main_v0_eq, Cert.ReferenceIdeal.RefValue.out0_eq, e0, e1]
    · rw [h68, Cert.ReferenceIdeal.Read.val_main_v68_eq, Cert.ReferenceIdeal.RefValue.out1_eq, e0, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
